-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S16384x64 : Shape := ⟨2, ![16384, 64]⟩
abbrev S4096x64 : Shape := ⟨2, ![4096, 64]⟩
abbrev S64 : Shape := ⟨1, ![64]⟩
abbrev S4096x1 : Shape := ⟨2, ![4096, 1]⟩
abbrev S1 : Shape := ⟨1, ![1]⟩
abbrev S64x4096 : Shape := ⟨2, ![64, 4096]⟩
abbrev S4096 : Shape := ⟨1, ![4096]⟩
abbrev S64x1 : Shape := ⟨2, ![64, 1]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_
  bcast_S_S4096x1 : S_.BroadcastsInDim S4096x1 (![] : Fin 0 → Fin S4096x1.rank)
  reducesTo_S4096x1_S_d0_1 : S4096x1.ReducesTo [0, 1] S_
  bcast_S_S1 : S_.BroadcastsInDim S1 (![] : Fin 0 → Fin S1.rank)
  reducesTo_S1_S_d0 : S1.ReducesTo [0] S_
  bcast_S_S64x4096 : S_.BroadcastsInDim S64x4096 (![] : Fin 0 → Fin S64x4096.rank)
  reducesTo_S64x4096_S_d0_1 : S64x4096.ReducesTo [0, 1] S_
  bcast_S_S4096 : S_.BroadcastsInDim S4096 (![] : Fin 0 → Fin S4096.rank)
  reducesTo_S4096_S_d0 : S4096.ReducesTo [0] S_
  bcast_S_S64x1 : S_.BroadcastsInDim S64x1 (![] : Fin 0 → Fin S64x1.rank)
  reducesTo_S64x1_S_d0_1 : S64x1.ReducesTo [0, 1] S_

variable [Facts]

def fn_part2 {F : FTy → Type} [FloatOps F] (main_arg7 : FVec F S4096 .f32) (main_arg8 : FVec F S64x1 .f32) (main_arg9 : FVec F S1 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S64x1 .f32 := Host.absf main_arg8
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S4096x1 .f32) (main_arg5 : FVec F S1 .f32) (main_arg6 : FVec F S64x4096 .f32) (main_arg7 : FVec F S4096 .f32) (main_arg8 : FVec F S64x1 .f32) (main_arg9 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S4096x1 .f32 := Host.absf main_arg4
  let main_cst_6 : FVec F S_ .f32 := constant S_ .f32 0x7F800000#32
  let main_v20 : FVec F S4096x1 .f32 := broadcastInDim S4096x1 ![] bcast_S_S4096x1 main_cst_6
  let main_v21 : IVec S4096x1 1 := cmpf .olt main_v19 main_v20
  let main_c_7 : IVec S_ 1 := constantI S_ 1 1#1
  let main_v22 : IVec S_ 1 := (fun x v => Host.reduce IntOp.andi x v reducesTo_S4096x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S64x4096 .f32 := Host.absf main_arg6
  let main_cst_10 : FVec F S_ .f32 := constant S_ .f32 0x7F800000#32
  let main_v30 : FVec F S64x4096 .f32 := broadcastInDim S64x4096 ![] bcast_S_S64x4096 main_cst_10
  let main_v31 : IVec S64x4096 1 := cmpf .olt main_v29 main_v30
  let main_c_11 : IVec S_ 1 := constantI S_ 1 1#1
  let main_v32 : IVec S_ 1 := (fun x v => Host.reduce IntOp.andi x v reducesTo_S64x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x4096 .f32) (main_arg1 : FVec F S16384x64 .f32) (main_arg2 : FVec F S4096x64 .f32) (main_arg3 : FVec F S64 .f32) (main_arg4 : FVec F S4096x1 .f32) (main_arg5 : FVec F S1 .f32) (main_arg6 : FVec F S64x4096 .f32) (main_arg7 : FVec F S4096 .f32) (main_arg8 : FVec F S64x1 .f32) (main_arg9 : FVec F S1 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S16384x4096 : Shape := ⟨2, ![16384, 4096]⟩
abbrev S16384x64 : Shape := ⟨2, ![16384, 64]⟩
abbrev S4096x64 : Shape := ⟨2, ![4096, 64]⟩
abbrev S64 : Shape := ⟨1, ![64]⟩
abbrev S4096x1 : Shape := ⟨2, ![4096, 1]⟩
abbrev S1 : Shape := ⟨1, ![1]⟩
abbrev S64x4096 : Shape := ⟨2, ![64, 4096]⟩
abbrev S4096 : Shape := ⟨1, ![4096]⟩
abbrev S64x1 : Shape := ⟨2, ![64, 1]⟩
abbrev S_ : Shape := ⟨0, ![]⟩
abbrev S4096x128 : Shape := ⟨2, ![4096, 128]⟩
abbrev S1x128 : Shape := ⟨2, ![1, 128]⟩
abbrev S2 : Shape := ⟨1, ![2]⟩
abbrev S1x4096 : Shape := ⟨2, ![1, 4096]⟩
abbrev S1x1 : Shape := ⟨2, ![1, 1]⟩
abbrev S512x4096 : Shape := ⟨2, ![512, 4096]⟩
abbrev S512x64 : Shape := ⟨2, ![512, 64]⟩
abbrev S512x128 : Shape := ⟨2, ![512, 128]⟩
abbrev S512x1 : Shape := ⟨2, ![512, 1]⟩
abbrev S512 : Shape := ⟨1, ![512]⟩
abbrev S512x512 : Shape := ⟨2, ![512, 512]⟩
abbrev S64x512 : Shape := ⟨2, ![64, 512]⟩
abbrev S1x512 : Shape := ⟨2, ![1, 512]⟩

abbrev nBuf : Space → Nat
  | .hbm => 38
  | .vmem => 12
  | .smem => 0
  | _ => 0

abbrev bufTy : (tb : Table) → Fin (tcTables nBuf tb) → BufTy
  | .hbm, ⟨0, _⟩ => ⟨S16384x4096, .f32⟩
  | .hbm, ⟨1, _⟩ => ⟨S16384x64, .f32⟩
  | .hbm, ⟨2, _⟩ => ⟨S4096x64, .f32⟩
  | .hbm, ⟨3, _⟩ => ⟨S64, .f32⟩
  | .hbm, ⟨4, _⟩ => ⟨S4096x1, .f32⟩
  | .hbm, ⟨5, _⟩ => ⟨S1, .f32⟩
  | .hbm, ⟨6, _⟩ => ⟨S64x4096, .f32⟩
  | .hbm, ⟨7, _⟩ => ⟨S4096, .f32⟩
  | .hbm, ⟨8, _⟩ => ⟨S64x1, .f32⟩
  | .hbm, ⟨9, _⟩ => ⟨S1, .f32⟩
  | .hbm, ⟨10, _⟩ => ⟨S_, .f32⟩
  | .hbm, ⟨11, _⟩ => ⟨S4096x128, .f32⟩
  | .hbm, ⟨12, _⟩ => ⟨S_, .i32⟩
  | .hbm, ⟨13, _⟩ => ⟨S1, .i32⟩
  | .hbm, ⟨14, _⟩ => ⟨S4096x128, .f32⟩
  | .hbm, ⟨15, _⟩ => ⟨S4096, .f32⟩
  | .hbm, ⟨16, _⟩ => ⟨S_, .i32⟩
  | .hbm, ⟨17, _⟩ => ⟨S1, .i32⟩
  | .hbm, ⟨18, _⟩ => ⟨S4096x128, .f32⟩
  | .hbm, ⟨19, _⟩ => ⟨S_, .f32⟩
  | .hbm, ⟨20, _⟩ => ⟨S1x128, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S1x128, .f32⟩
  | .hbm, ⟨27, _⟩ => ⟨S_, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S1x128, .f32⟩
  | .hbm, ⟨34, _⟩ => ⟨S1x4096, .f32⟩
  | .hbm, ⟨35, _⟩ => ⟨S1x1, .f32⟩
  | .hbm, ⟨36, _⟩ => ⟨S1x1, .f32⟩
  | .hbm, ⟨37, _⟩ => ⟨S1, .f32⟩
  | .local _ .vmem, ⟨0, _⟩ => ⟨S512x4096, .f32⟩
  | .local _ .vmem, ⟨1, _⟩ => ⟨S512x4096, .f32⟩
  | .local _ .vmem, ⟨2, _⟩ => ⟨S512x64, .f32⟩
  | .local _ .vmem, ⟨3, _⟩ => ⟨S512x64, .f32⟩
  | .local _ .vmem, ⟨4, _⟩ => ⟨S4096x128, .f32⟩
  | .local _ .vmem, ⟨5, _⟩ => ⟨S1x128, .f32⟩
  | .local _ .vmem, ⟨6, _⟩ => ⟨S64x4096, .f32⟩
  | .local _ .vmem, ⟨7, _⟩ => ⟨S1x4096, .f32⟩
  | .local _ .vmem, ⟨8, _⟩ => ⟨S64x1, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_c_2 : Ref sig .tc := ⟨.hbm, 21, rfl⟩
abbrev main_v7 : Ref sig .tc := ⟨.hbm, 22, rfl⟩
abbrev main_c_3 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_4 : Ref sig .tc := ⟨.hbm, 28, rfl⟩
abbrev main_v12 : Ref sig .tc := ⟨.hbm, 29, rfl⟩
abbrev main_c_5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![32], ![false]⟩

def k0_mult1 : BitVec 32 :=
  let c0_i32_14 : BitVec 32 := 0#32
  let c512_i32 : BitVec 32 := 512#32
  let v35 : BitVec 32 := Scalar.muli c0_i32_14 c512_i32
  v35
def k0_off1 (c0_i32_14 : BitVec 32) : Fin 2 → Nat :=
  let c0_15 : Index := 0#32
  let c512_i32 : BitVec 32 := 512#32
  let v35 : BitVec 32 := Scalar.muli c0_i32_14 c512_i32
  let v36 : BitVec 32 := v35
  let v37 : Index := Scalar.indexCast v36
  ![0, v37.toNat]
def k0_off2 (c0_i32_14 : BitVec 32) : Fin 2 → Nat :=
  let c0_16 : Index := 0#32
  let c512_i32 : BitVec 32 := 512#32
  let v35 : BitVec 32 := Scalar.muli c0_i32_14 c512_i32
  let v36 : BitVec 32 := v35
  let v39 : Index := Scalar.indexCast v36
  ![0, v39.toNat]
def k0_off3 (c0_i32_14 : BitVec 32) : Fin 2 → Nat :=
  let c0_17 : Index := 0#32
  let c512_i32 : BitVec 32 := 512#32
  let v35 : BitVec 32 := Scalar.muli c0_i32_14 c512_i32
  let v36 : BitVec 32 := v35
  let v42 : Index := Scalar.indexCast v36
  ![0, v42.toNat]
def k0_mult2 : BitVec 32 :=
  let c1_i32 : BitVec 32 := 1#32
  let c512_i32_20 : BitVec 32 := 512#32
  let v52 : BitVec 32 := Scalar.muli c1_i32 c512_i32_20
  v52
def k0_mult3 : BitVec 32 :=
  let c2_i32 : BitVec 32 := 2#32
  let c512_i32_26 : BitVec 32 := 512#32
  let v69 : BitVec 32 := Scalar.muli c2_i32 c512_i32_26
  v69
def k0_mult4 : BitVec 32 :=
  let c3_i32 : BitVec 32 := 3#32
  let c512_i32_32 : BitVec 32 := 512#32
  let v86 : BitVec 32 := Scalar.muli c3_i32 c512_i32_32
  v86
def k0_mult5 : BitVec 32 :=
  let c4_i32 : BitVec 32 := 4#32
  let c512_i32_38 : BitVec 32 := 512#32
  let v103 : BitVec 32 := Scalar.muli c4_i32 c512_i32_38
  v103
def k0_mult6 : BitVec 32 :=
  let c5_i32 : BitVec 32 := 5#32
  let c512_i32_44 : BitVec 32 := 512#32
  let v120 : BitVec 32 := Scalar.muli c5_i32 c512_i32_44
  v120
def k0_mult7 : BitVec 32 :=
  let c6_i32 : BitVec 32 := 6#32
  let c512_i32_50 : BitVec 32 := 512#32
  let v137 : BitVec 32 := Scalar.muli c6_i32 c512_i32_50
  v137
def k0_mult8 : BitVec 32 :=
  let c7_i32 : BitVec 32 := 7#32
  let c512_i32_56 : BitVec 32 := 512#32
  let v154 : BitVec 32 := Scalar.muli c7_i32 c512_i32_56
  v154
def k0_cond2 (i : grid0.Coords) : BitVec 1 :=
  let arg0 : BitVec 32 := BitVec.ofNat 32 (i 0).val
  let c31_i32 : BitVec 32 := 31#32
  let v210 : BitVec 1 := Scalar.cmpi .eq arg0 c31_i32
  let v211 : BitVec 32 := Scalar.extui v210
  let c0_i32_77 : BitVec 32 := 0#32
  let v212 : BitVec 1 := Scalar.cmpi .ne v211 c0_i32_77
  v212

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  bcast_S_S4096x128 : S_.BroadcastsInDim S4096x128 (![] : Fin 0 → Fin S4096x128.rank)
  bcast_S_S1 : S_.BroadcastsInDim S1 (![] : Fin 0 → Fin S1.rank)
  shapeCasts_S4096x1_S4096 : S4096x1.ShapeCasts S4096
  bcast_S_S1x128 : S_.BroadcastsInDim S1x128 (![] : Fin 0 → Fin S1x128.rank)
  concatenates_S1_S1_S2_d0 : Shape.Concatenates [S1, S1] S2 0
  shapeCasts_S1_S_ : S1.ShapeCasts S_
  shapeCasts_S4096_S1x4096 : S4096.ShapeCasts S1x4096
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  slices_S512x128_o0_0_S512x64 : S512x128.Slices ![0, 0] S512x64
  slices_S512x128_o0_64_S512x1 : S512x128.Slices ![0, 64] S512x1
  inb_S512x64_S512x64_0_0 : ∀ a, (![0, 0] : Fin 2 → Nat) a + S512x64.size a ≤ S512x64.size a
  h_S512x64 : 0 < S512x64.numel
  broadcasts_S512x1_S512x64 : S512x1.Broadcasts S512x64
  shapeCasts_S512x1_S512 : S512x1.ShapeCasts S512
  inb_S64x1_S64x1_0_0 : ∀ a, (![0, 0] : Fin 2 → Nat) a + S64x1.size a ≤ S64x1.size a
  h_S64x1 : 0 < S64x1.numel
  broadcasts_S1x1_S512x1 : S1x1.Broadcasts S512x1
  h_S512x512 : 0 < S512x512.numel
  h_S64x512 : 0 < S64x512.numel
  h_S1x512 : 0 < S1x512.numel
  shapeCasts_S1x512_S1x512 : S1x512.ShapeCasts S1x512
  broadcasts_S1x512_S512x512 : S1x512.Broadcasts S512x512
  reduces_S512x512_S512 : S512x512.Reduces [1] S512
  reduces_S512x64_S512 : S512x64.Reduces [1] S512
  shapeCasts_S512_S1x512 : S512.ShapeCasts S1x512
  reduces_S1x512_S1 : S1x512.Reduces [1] S1
  inpos_S1x1_p0_0 : ∀ a, (![0, 0] : Fin 2 → Nat) a < S1x1.size a
  shapeCasts_S1x1_S1 : S1x1.ShapeCasts S1
  scatter_S4096x128_S1_S4096x64_01_n_1_0_wf : ScatterDims.WF S4096x128 S1 S4096x64 [0, 1] [] [1] 0
  scatter_S4096x128_S1_S4096_0_1_1_0_wf : ScatterDims.WF S4096x128 S1 S4096 [0] [1] [1] 0
  scatter_S1x128_S2_S64_0_0_01_0_wf : ScatterDims.WF S1x128 S2 S64 [0] [0] [0, 1] 0
  scatter_S1x128_S2_S__n_01_01_0_wf : ScatterDims.WF S1x128 S2 S_ [] [0, 1] [0, 1] 0
  dot_S512x4096_S4096x128_S512x128_1_0_0_1_n_n_wf : DotDims.WF S512x4096 S4096x128 S512x128 [1] [0] [0] [1] [] []
  dot_S512x64_S64x1_S512x1_1_0_0_1_n_n_wf : DotDims.WF S512x64 S64x1 S512x1 [1] [0] [0] [1] [] []
  dot_S512x64_S64x512_S512x512_1_0_0_1_n_n_wf : DotDims.WF S512x64 S64x512 S512x512 [1] [0] [0] [1] [] []
  hrank0 : 0 < grid0.rank
  k0_mult1_dvd : 512 ∣ k0_mult1.toNat
  k0_off1_inb : ∀ (r : Fin 8), ∀ a, (k0_off1 (BitVec.ofNat 32 r.val)) a + S512x512.size a ≤ S512x4096.size a
  k0_off2_inb : ∀ (r : Fin 8), ∀ a, (k0_off2 (BitVec.ofNat 32 r.val)) a + S64x512.size a ≤ S64x4096.size a
  k0_off3_inb : ∀ (r : Fin 8), ∀ a, (k0_off3 (BitVec.ofNat 32 r.val)) a + S1x512.size a ≤ S1x4096.size a
  k0_mult2_dvd : 512 ∣ k0_mult2.toNat
  k0_mult3_dvd : 512 ∣ k0_mult3.toNat
  k0_mult4_dvd : 512 ∣ k0_mult4.toNat
  k0_mult5_dvd : 512 ∣ k0_mult5.toNat
  k0_mult6_dvd : 512 ∣ k0_mult6.toNat
  k0_mult7_dvd : 512 ∣ k0_mult7.toNat
  k0_mult8_dvd : 512 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S16384x64.size a
  hwx0_1 : ∀ i : grid0.Coords, EltTy.bits .f32 = 32 ∨ (Rect.block (s := S16384x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S4096x128.size a
  hwx0_2 : ∀ i : grid0.Coords, EltTy.bits .f32 = 32 ∨ (Rect.block (s := S4096x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x4096.size a ≤ S64x4096.size a
  hwx0_4 : ∀ i : grid0.Coords, EltTy.bits .f32 = 32 ∨ (Rect.block (s := S64x4096) S64x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)

variable [Facts₀]

def scatter_S4096x128_S1_S4096x64_01_n_1_0 : ScatterDims S4096x128 S1 S4096x64 where
  updateWindowDims := [0, 1]
  insertedWindowDims := []
  scatterDimsToOperandDims := [1]
  indexVectorDim := 0
  wf := scatter_S4096x128_S1_S4096x64_01_n_1_0_wf
def scatter_S4096x128_S1_S4096_0_1_1_0 : ScatterDims S4096x128 S1 S4096 where
  updateWindowDims := [0]
  insertedWindowDims := [1]
  scatterDimsToOperandDims := [1]
  indexVectorDim := 0
  wf := scatter_S4096x128_S1_S4096_0_1_1_0_wf
def scatter_S1x128_S2_S64_0_0_01_0 : ScatterDims S1x128 S2 S64 where
  updateWindowDims := [0]
  insertedWindowDims := [0]
  scatterDimsToOperandDims := [0, 1]
  indexVectorDim := 0
  wf := scatter_S1x128_S2_S64_0_0_01_0_wf
def scatter_S1x128_S2_S__n_01_01_0 : ScatterDims S1x128 S2 S_ where
  updateWindowDims := []
  insertedWindowDims := [0, 1]
  scatterDimsToOperandDims := [0, 1]
  indexVectorDim := 0
  wf := scatter_S1x128_S2_S__n_01_01_0_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4096x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S1x1.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S16384x4096 : Shape := ⟨2, ![16384, 4096]⟩
abbrev S16384x64 : Shape := ⟨2, ![16384, 64]⟩
abbrev S4096x64 : Shape := ⟨2, ![4096, 64]⟩
abbrev S64 : Shape := ⟨1, ![64]⟩
abbrev S4096x1 : Shape := ⟨2, ![4096, 1]⟩
abbrev S1 : Shape := ⟨1, ![1]⟩
abbrev S64x4096 : Shape := ⟨2, ![64, 4096]⟩
abbrev S4096 : Shape := ⟨1, ![4096]⟩
abbrev S64x1 : Shape := ⟨2, ![64, 1]⟩
abbrev S1x64 : Shape := ⟨2, ![1, 64]⟩
abbrev S16384x1 : Shape := ⟨2, ![16384, 1]⟩
abbrev S1x1 : Shape := ⟨2, ![1, 1]⟩
abbrev S1x4096 : Shape := ⟨2, ![1, 4096]⟩
abbrev S16384 : Shape := ⟨1, ![16384]⟩
abbrev S_ : Shape := ⟨0, ![]⟩

abbrev nBuf : Space → Nat
  | .hbm => 82
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x64, .f32⟩
  | .hbm, ⟨2, _⟩ => ⟨S4096x64, .f32⟩
  | .hbm, ⟨3, _⟩ => ⟨S64, .f32⟩
  | .hbm, ⟨4, _⟩ => ⟨S4096x1, .f32⟩
  | .hbm, ⟨5, _⟩ => ⟨S1, .f32⟩
  | .hbm, ⟨6, _⟩ => ⟨S64x4096, .f32⟩
  | .hbm, ⟨7, _⟩ => ⟨S4096, .f32⟩
  | .hbm, ⟨8, _⟩ => ⟨S64x1, .f32⟩
  | .hbm, ⟨9, _⟩ => ⟨S1, .f32⟩
  | .hbm, ⟨10, _⟩ => ⟨S16384x64, .f32⟩
  | .hbm, ⟨11, _⟩ => ⟨S1x64, .f32⟩
  | .hbm, ⟨12, _⟩ => ⟨S16384x64, .f32⟩
  | .hbm, ⟨13, _⟩ => ⟨S16384x64, .f32⟩
  | .hbm, ⟨14, _⟩ => ⟨S16384x1, .f32⟩
  | .hbm, ⟨15, _⟩ => ⟨S1x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x64, .f32⟩
  | .hbm, ⟨20, _⟩ => ⟨S16384x64, .f32⟩
  | .hbm, ⟨21, _⟩ => ⟨S16384x64, .f32⟩
  | .hbm, ⟨22, _⟩ => ⟨S16384x4096, .f32⟩
  | .hbm, ⟨23, _⟩ => ⟨S1x4096, .f32⟩
  | .hbm, ⟨24, _⟩ => ⟨S16384x4096, .f32⟩
  | .hbm, ⟨25, _⟩ => ⟨S16384x4096, .f32⟩
  | .hbm, ⟨26, _⟩ => ⟨S16384x1, .f32⟩
  | .hbm, ⟨27, _⟩ => ⟨S1x1, .f32⟩
  | .hbm, ⟨28, _⟩ => ⟨S16384x1, .f32⟩
  | .hbm, ⟨29, _⟩ => ⟨S16384x1, .f32⟩
  | .hbm, ⟨30, _⟩ => ⟨S16384, .f32⟩
  | .hbm, ⟨31, _⟩ => ⟨S16384, .f32⟩
  | .hbm, ⟨32, _⟩ => ⟨S16384, .f32⟩
  | .hbm, ⟨33, _⟩ => ⟨S16384, .f32⟩
  | .hbm, ⟨34, _⟩ => ⟨S16384, .f32⟩
  | .hbm, ⟨35, _⟩ => ⟨S16384, .f32⟩
  | .hbm, ⟨36, _⟩ => ⟨S16384x64, .f32⟩
  | .hbm, ⟨37, _⟩ => ⟨S16384x64, .f32⟩
  | .hbm, ⟨38, _⟩ => ⟨S_, .f32⟩
  | .hbm, ⟨39, _⟩ => ⟨S16384, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S_, .f32⟩
  | .hbm, ⟨45, _⟩ => ⟨S16384, .f32⟩
  | .hbm, ⟨46, _⟩ => ⟨S16384, .f32⟩
  | .hbm, ⟨47, _⟩ => ⟨S16384, .f32⟩
  | .hbm, ⟨48, _⟩ => ⟨S16384, .f32⟩
  | .hbm, ⟨49, _⟩ => ⟨S_, .f32⟩
  | .hbm, ⟨50, _⟩ => ⟨S16384, .f32⟩
  | .hbm, ⟨51, _⟩ => ⟨S16384, .f32⟩
  | .hbm, ⟨52, _⟩ => ⟨S16384x4096, .f32⟩
  | .hbm, ⟨53, _⟩ => ⟨S16384x4096, .f32⟩
  | .hbm, ⟨54, _⟩ => ⟨S_, .f32⟩
  | .hbm, ⟨55, _⟩ => ⟨S16384, .f32⟩
  | .hbm, ⟨56, _⟩ => ⟨S16384, .f32⟩
  | .hbm, ⟨57, _⟩ => ⟨S_, .f32⟩
  | .hbm, ⟨58, _⟩ => ⟨S16384, .f32⟩
  | .hbm, ⟨59, _⟩ => ⟨S16384, .f32⟩
  | .hbm, ⟨60, _⟩ => ⟨S_, .f32⟩
  | .hbm, ⟨61, _⟩ => ⟨S16384, .f32⟩
  | .hbm, ⟨62, _⟩ => ⟨S16384, .f32⟩
  | .hbm, ⟨63, _⟩ => ⟨S16384, .f32⟩
  | .hbm, ⟨64, _⟩ => ⟨S16384, .f32⟩
  | .hbm, ⟨65, _⟩ => ⟨S_, .f32⟩
  | .hbm, ⟨66, _⟩ => ⟨S16384, .f32⟩
  | .hbm, ⟨67, _⟩ => ⟨S16384, .f32⟩
  | .hbm, ⟨68, _⟩ => ⟨S16384x64, .f32⟩
  | .hbm, ⟨69, _⟩ => ⟨S_, .f32⟩
  | .hbm, ⟨70, _⟩ => ⟨S16384, .f32⟩
  | .hbm, ⟨71, _⟩ => ⟨S_, .f32⟩
  | .hbm, ⟨72, _⟩ => ⟨S16384, .f32⟩
  | .hbm, ⟨73, _⟩ => ⟨S16384, .f32⟩
  | .hbm, ⟨74, _⟩ => ⟨S_, .f32⟩
  | .hbm, ⟨75, _⟩ => ⟨S16384, .f32⟩
  | .hbm, ⟨76, _⟩ => ⟨S16384, .f32⟩
  | .hbm, ⟨77, _⟩ => ⟨S16384, .f32⟩
  | .hbm, ⟨78, _⟩ => ⟨S16384, .f32⟩
  | .hbm, ⟨79, _⟩ => ⟨S_, .f32⟩
  | .hbm, ⟨80, _⟩ => ⟨S_, .f32⟩
  | .hbm, ⟨81, _⟩ => ⟨S1, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst : Ref sig .tc := ⟨.hbm, 38, rfl⟩
abbrev main_v28 : Ref sig .tc := ⟨.hbm, 39, rfl⟩
abbrev main_v29 : Ref sig .tc := ⟨.hbm, 40, rfl⟩
abbrev main_cst_0 : Ref sig .tc := ⟨.hbm, 41, rfl⟩
abbrev main_v30 : Ref sig .tc := ⟨.hbm, 42, rfl⟩
abbrev main_v31 : Ref sig .tc := ⟨.hbm, 43, rfl⟩
abbrev main_cst_1 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_2 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_cst_8 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S16384x1_S16384x64_0_1 : S16384x1.BroadcastsInDim S16384x64 (![0, 1] : Fin 2 → Fin S16384x64.rank)
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  shapeCasts_S16384x1_S16384 : S16384x1.ShapeCasts S16384
  reducesTo_S16384x64_S16384_d1 : S16384x64.ReducesTo [1] S16384
  h_S_ : 0 < S_.numel
  bcast_S_S16384 : S_.BroadcastsInDim S16384 (![] : Fin 0 → Fin S16384.rank)
  reducesTo_S16384x4096_S16384_d1 : S16384x4096.ReducesTo [1] S16384
  reducesTo_S16384_S_d0 : S16384.ReducesTo [0] S_
  shapeCasts_S_S1 : S_.ShapeCasts S1
  dot_S16384x4096_S4096x64_S16384x64_1_0_0_1_n_n_wf : DotDims.WF S16384x4096 S4096x64 S16384x64 [1] [0] [0] [1] [] []
  dot_S16384x4096_S4096x1_S16384x1_1_0_0_1_n_n_wf : DotDims.WF S16384x4096 S4096x1 S16384x1 [1] [0] [0] [1] [] []
  dot_S16384x64_S64x4096_S16384x4096_1_0_0_1_n_n_wf : DotDims.WF S16384x64 S64x4096 S16384x4096 [1] [0] [0] [1] [] []
  dot_S16384x64_S64x1_S16384x1_1_0_0_1_n_n_wf : DotDims.WF S16384x64 S64x1 S16384x1 [1] [0] [0] [1] [] []

variable [Facts₀]

def dot_S16384x4096_S4096x64_S16384x64_1_0_0_1_n_n : DotDims S16384x4096 S4096x64 S16384x64 where
  lhsContracting := [1]
  rhsContracting := [0]
  lhsNonContracting := [0]
  rhsNonContracting := [1]
  lhsBatch := []
  rhsBatch := []
  wf := dot_S16384x4096_S4096x64_S16384x64_1_0_0_1_n_n_wf
def dot_S16384x4096_S4096x1_S16384x1_1_0_0_1_n_n : DotDims S16384x4096 S4096x1 S16384x1 where
  lhsContracting := [1]
  rhsContracting := [0]
  lhsNonContracting := [0]
  rhsNonContracting := [1]
  lhsBatch := []
  rhsBatch := []
  wf := dot_S16384x4096_S4096x1_S16384x1_1_0_0_1_n_n_wf
def dot_S16384x64_S64x4096_S16384x4096_1_0_0_1_n_n : DotDims S16384x64 S64x4096 S16384x4096 where
  lhsContracting := [1]
  rhsContracting := [0]
  lhsNonContracting := [0]
  rhsNonContracting := [1]
  lhsBatch := []
  rhsBatch := []
  wf := dot_S16384x64_S64x4096_S16384x4096_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.BodyDef.lean ====
/-
  What one grid point of the kernel leaves in its accumulator, as ONE pure term: the body's payloads composed, over the
  point's input blocks (a 512-row tile `x0` of the data and `x1` of the noise, the packed encoder weight `x2` and bias
  `x3`, the decoder's scale weight `x6` and bias `x7`), the eight 512-column slices the body loads of the data tile
  (`xc`), of the decoder's mean weight (`wc`) and of its bias (`bc`), and the accumulator's contents before (`acc`).

  `sqErrChunks` is the tile's squared reconstruction error accumulated chunk by chunk, from zero, for a latent `z`.
-/
import proofs.«126403_j42202348650518_1_alg».proof.Proof.Gen.KernelIdeal.Skeleton
import Idealize.ShloMosaic.Lib.ValueIdx

noncomputable section

namespace Cert.KernelIdeal.Body

open Cert.KernelIdeal Cert.KernelIdeal.Gen Idealize.ShloMosaic Idealize.ShloMosaic.ValueIdx

variable {F : FTy → Type} [FloatOps F]

/-- Chunk `c` of an array with 4096 columns: its columns `512·c … 512·c + 511`, every row. -/
def colSlice {α : Type} {R : ℕ} (x : (⟨2, ![R, 4096]⟩ : Shape).Idx → α) (c : Fin 8) : (⟨2, ![R, 512]⟩ : Shape).Idx → α :=
  fun y => x (ix2 (y 0) ⟨512 * c.val + (y 1).val, by have := c.isLt; have := idx2_lt1 y; omega⟩)

theorem colSlice_apply {α : Type} {R : ℕ} (x : (⟨2, ![R, 4096]⟩ : Shape).Idx → α) (c : Fin 8) (r : Fin R) (j : Fin 512) :
    colSlice x c (ix2 r j) = x (ix2 r ⟨512 * c.val + j.val, by have := c.isLt; have := j.isLt; omega⟩) := rfl

/-! ### A tile's rows and the packed encoder weight, at the extended reals -/

/-- Row `r` of the data tile. -/
abbrev tileRow (x0 : Vec Ideal S512x4096 .f32) (r : Fin 512) : Fin 4096 → EReal := fun k => x0 (ix2 r k)
/-- Row `r` of the noise tile. -/
abbrev noiseRow (x1 : Vec Ideal S512x64 .f32) (r : Fin 512) : Fin 64 → EReal := fun j => x1 (ix2 r j)
/-- The encoder mean's weight: columns `0 … 63` of the packed weight. -/
abbrev packedWmu (x2 : Vec Ideal S4096x128 .f32) : Fin 4096 → Fin 64 → EReal := fun k j => x2 (ix2 k (Fin.castLE (by decide) j))
/-- The encoder mean's bias: entries `0 … 63` of the packed bias. -/
abbrev packedBmu (x3 : Vec Ideal S1x128 .f32) : Fin 64 → EReal := fun j => x3 (ix2 0 (Fin.castLE (by decide) j))
/-- The encoder scale's weight: column `64` of the packed weight. -/
abbrev packedWsig (x2 : Vec Ideal S4096x128 .f32) : Fin 4096 → EReal := fun k => x2 (ix2 k (64 : Fin 128))
/-- The encoder scale's bias: entry `64` of the packed bias. -/
abbrev packedBsig (x3 : Vec Ideal S1x128 .f32) : EReal := x3 (ix2 0 (64 : Fin 128))

/-- The squared error `Σ_q (x_q − x̂_q)²` of each row, as the body accumulates it: from the zero vector, chunk after chunk
    (`x̂` on a chunk is the latent times that chunk of the decoder's weight plus that chunk of its bias). -/
def sqErrChunks (z : FVec F S512x64 .bf16) (xc : Fin 8 → Vec F S512x512 .f32) (wc : Fin 8 → Vec F S64x512 .f32)
    (bc : Fin 8 → Vec F S1x512 .f32) : FVec F S512 .f32 :=
  addf
    (k0_pay15 z
      (k0_pay14 z (k0_pay11 z (k0_pay10 (F := F)) (xc 0) (wc 0) (bc 0) (xc 1) (wc 1) (bc 1))
        (xc 2) (k0_pay12 z (wc 2)) (k0_pay13 (bc 2)) (xc 3) (wc 3) (bc 3) (xc 4) (wc 4) (bc 4))
      (xc 5) (wc 5) (bc 5) (xc 6) (wc 6) (bc 6))
    (multiReduction .add [1] S512
      (mulf (subf (xc 7) (addf (k0_pay16 z (wc 7)) (k0_pay17 (bc 7)))) (subf (xc 7) (addf (k0_pay16 z (wc 7)) (k0_pay17 (bc 7)))))
      0x00000000#32 reduces_S512x512_S512 (.inl rfl) rfl)

/-- The accumulator after the point: its contents before plus the tile's sum of per-sample terms. -/
def bodyOut (x0 : Vec F S512x4096 .f32) (x1 : Vec F S512x64 .f32) (x2 : Vec F S4096x128 .f32) (x3 : Vec F S1x128 .f32)
    (x6 : Vec F S64x1 .f32) (x7 : Vec F S1x1 .f32) (xc : Fin 8 → Vec F S512x512 .f32) (wc : Fin 8 → Vec F S64x512 .f32)
    (bc : Fin 8 → Vec F S1x512 .f32) (acc : Vec F S1x1 .f32) : FVec F S1x1 .f32 :=
  k0_pay1 (k0_pay18 (k0_pay4 x0 x2 x3) (k0_pay6 x0 x2 x3 x1) (k0_pay7 x0 x2 x3) (k0_pay9 x0 x2 x3 x1 x6 x7)
    (k0_pay15 (k0_pay8 x0 x2 x3 x1)
      (k0_pay14 (k0_pay8 x0 x2 x3 x1) (k0_pay11 (k0_pay8 x0 x2 x3 x1) (k0_pay10 (F := F)) (xc 0) (wc 0) (bc 0) (xc 1) (wc 1) (bc 1))
        (xc 2) (k0_pay12 (k0_pay8 x0 x2 x3 x1) (wc 2)) (k0_pay13 (bc 2)) (xc 3) (wc 3) (bc 3) (xc 4) (wc 4) (bc 4))
      (xc 5) (wc 5) (bc 5) (xc 6) (wc 6) (bc 6))
    (xc 7) (k0_pay16 (k0_pay8 x0 x2 x3 x1) (wc 7)) (k0_pay17 (bc 7)) acc)

end Cert.KernelIdeal.Body

end
-- ==== Proof.BlockReads.lean ====
/-
  The kernel's input blocks at a grid point, read off the arrays as the region finds them: point `t`'s tile of the data
  and of the noise is rows `512·t … 512·t + 511`; the six other windows' one block is their whole array.
-/
import proofs.«126403_j42202348650518_1_alg».proof.Proof.Gen.KernelIdeal.Frame
import proofs.«126403_j42202348650518_1_alg».proof.Proof.BodyDef
import Idealize.ShloMosaic.Lib.ValueIdx
import Idealize.ShloMosaic.Lib.Pipeline.Value

noncomputable section

namespace Cert.KernelIdeal.KValue

open Cert.KernelIdeal Cert.KernelIdeal.Gen Cert.KernelIdeal.Body Idealize.ShloMosaic Idealize.ShloMosaic.ValueIdx
  Idealize.ShloMosaic.TcCoe Idealize.SL.Sem

variable (m : (ℓ : Loc nD τ sig) → Buf (Elt Ideal) ℓ)

/-- The point's tile of the data. -/
abbrev blk0 (c : Dev nD) (t : Fin cfg0.N) : Vec Ideal S512x4096 .f32 := iblk m c 0 t
/-- The point's tile of the noise. -/
abbrev blk1 (c : Dev nD) (t : Fin cfg0.N) : Vec Ideal S512x64 .f32 := iblk m c 1 t
/-- The packed encoder weight's one block. -/
abbrev blk2 (c : Dev nD) (t : Fin cfg0.N) : Vec Ideal S4096x128 .f32 := iblk m c 2 t
/-- The packed encoder bias's one block. -/
abbrev blk3 (c : Dev nD) (t : Fin cfg0.N) : Vec Ideal S1x128 .f32 := iblk m c 3 t
/-- The decoder mean's weight, one block. -/
abbrev blk4 (c : Dev nD) (t : Fin cfg0.N) : Vec Ideal S64x4096 .f32 := iblk m c 4 t
/-- The decoder mean's bias as a row, one block. -/
abbrev blk5 (c : Dev nD) (t : Fin cfg0.N) : Vec Ideal S1x4096 .f32 := iblk m c 5 t
/-- The decoder scale's weight, one block. -/
abbrev blk6 (c : Dev nD) (t : Fin cfg0.N) : Vec Ideal S64x1 .f32 := iblk m c 6 t
/-- The decoder scale's bias as a 1×1 array, one block. -/
abbrev blk7 (c : Dev nD) (t : Fin cfg0.N) : Vec Ideal S1x1 .f32 := iblk m c 7 t

theorem row_lt (t : Fin cfg0.N) (r : Fin 512) : 512 * t.val + r.val < 16384 := by
  have : t.val < 32 := lt_of_lt_of_eq t.isLt N_0
  have := r.isLt; omega

theorem blk0_apply (c : Dev nD) (t : Fin cfg0.N) (r : Fin 512) (k : Fin 4096) :
    blk0 m c t (ix2 r k) = (V m c main_arg0 : S16384x4096.Idx → EReal) (ix2 ⟨512 * t.val + r.val, row_lt t r⟩ k) := by
  have hi : win0_0.index t 0 = t.val ∧ win0_0.index t 1 = 0 :=
    (by decide +kernel : ∀ t : Fin grid0.N, win0_0.index t 0 = t.val ∧ win0_0.index t 1 = 0) t
  unfold blk0 iblk
  rw [View.read_apply]
  show V m c main_arg0 _ = V m c main_arg0 _
  congr 1
  funext a
  apply Fin.ext
  match a with
  | ⟨0, _⟩ => show win0_0.index t 0 * 512 + 1 * r.val = 512 * t.val + r.val; rw [hi.1]; omega
  | ⟨1, _⟩ => show win0_0.index t 1 * 4096 + 1 * k.val = k.val; rw [hi.2]; omega

theorem blk1_apply (c : Dev nD) (t : Fin cfg0.N) (r : Fin 512) (k : Fin 64) :
    blk1 m c t (ix2 r k) = (V m c main_arg1 : S16384x64.Idx → EReal) (ix2 ⟨512 * t.val + r.val, row_lt t r⟩ k) := by
  have hi : win0_1.index t 0 = t.val ∧ win0_1.index t 1 = 0 :=
    (by decide +kernel : ∀ t : Fin grid0.N, win0_1.index t 0 = t.val ∧ win0_1.index t 1 = 0) t
  unfold blk1 iblk
  rw [View.read_apply]
  show V m c main_arg1 _ = V m c main_arg1 _
  congr 1
  funext a
  apply Fin.ext
  match a with
  | ⟨0, _⟩ => show win0_1.index t 0 * 512 + 1 * r.val = 512 * t.val + r.val; rw [hi.1]; omega
  | ⟨1, _⟩ => show win0_1.index t 1 * 64 + 1 * k.val = k.val; rw [hi.2]; omega

theorem blk2_apply (c : Dev nD) (t : Fin cfg0.N) (r : Fin 4096) (k : Fin 128) :
    blk2 m c t (ix2 r k) = (V m c main_v5 : S4096x128.Idx → EReal) (ix2 r k) := by
  have hi : win0_2.index t 0 = 0 ∧ win0_2.index t 1 = 0 :=
    (by decide +kernel : ∀ t : Fin grid0.N, win0_2.index t 0 = 0 ∧ win0_2.index t 1 = 0) t
  unfold blk2 iblk
  rw [View.read_apply]
  show V m c main_v5 _ = V m c main_v5 _
  congr 1
  funext a
  apply Fin.ext
  match a with
  | ⟨0, _⟩ => show win0_2.index t 0 * 4096 + 1 * r.val = r.val; rw [hi.1]; omega
  | ⟨1, _⟩ => show win0_2.index t 1 * 128 + 1 * k.val = k.val; rw [hi.2]; omega

theorem blk3_apply (c : Dev nD) (t : Fin cfg0.N) (r : Fin 1) (k : Fin 128) :
    blk3 m c t (ix2 r k) = (V m c main_v15 : S1x128.Idx → EReal) (ix2 r k) := by
  have hi : win0_3.index t 0 = 0 ∧ win0_3.index t 1 = 0 :=
    (by decide +kernel : ∀ t : Fin grid0.N, win0_3.index t 0 = 0 ∧ win0_3.index t 1 = 0) t
  unfold blk3 iblk
  rw [View.read_apply]
  show V m c main_v15 _ = V m c main_v15 _
  congr 1
  funext a
  apply Fin.ext
  match a with
  | ⟨0, _⟩ => show win0_3.index t 0 * 1 + 1 * r.val = r.val; rw [hi.1]; omega
  | ⟨1, _⟩ => show win0_3.index t 1 * 128 + 1 * k.val = k.val; rw [hi.2]; omega

theorem blk4_apply (c : Dev nD) (t : Fin cfg0.N) (r : Fin 64) (k : Fin 4096) :
    blk4 m c t (ix2 r k) = (V m c main_arg6 : S64x4096.Idx → EReal) (ix2 r k) := by
  have hi : win0_4.index t 0 = 0 ∧ win0_4.index t 1 = 0 :=
    (by decide +kernel : ∀ t : Fin grid0.N, win0_4.index t 0 = 0 ∧ win0_4.index t 1 = 0) t
  unfold blk4 iblk
  rw [View.read_apply]
  show V m c main_arg6 _ = V m c main_arg6 _
  congr 1
  funext a
  apply Fin.ext
  match a with
  | ⟨0, _⟩ => show win0_4.index t 0 * 64 + 1 * r.val = r.val; rw [hi.1]; omega
  | ⟨1, _⟩ => show win0_4.index t 1 * 4096 + 1 * k.val = k.val; rw [hi.2]; omega

theorem blk5_apply (c : Dev nD) (t : Fin cfg0.N) (r : Fin 1) (k : Fin 4096) :
    blk5 m c t (ix2 r k) = (V m c main_v16 : S1x4096.Idx → EReal) (ix2 r k) := by
  have hi : win0_5.index t 0 = 0 ∧ win0_5.index t 1 = 0 :=
    (by decide +kernel : ∀ t : Fin grid0.N, win0_5.index t 0 = 0 ∧ win0_5.index t 1 = 0) t
  unfold blk5 iblk
  rw [View.read_apply]
  show V m c main_v16 _ = V m c main_v16 _
  congr 1
  funext a
  apply Fin.ext
  match a with
  | ⟨0, _⟩ => show win0_5.index t 0 * 1 + 1 * r.val = r.val; rw [hi.1]; omega
  | ⟨1, _⟩ => show win0_5.index t 1 * 4096 + 1 * k.val = k.val; rw [hi.2]; omega

theorem blk6_apply (c : Dev nD) (t : Fin cfg0.N) (r : Fin 64) (k : Fin 1) :
    blk6 m c t (ix2 r k) = (V m c main_arg8 : S64x1.Idx → EReal) (ix2 r k) := by
  have hi : win0_6.index t 0 = 0 ∧ win0_6.index t 1 = 0 :=
    (by decide +kernel : ∀ t : Fin grid0.N, win0_6.index t 0 = 0 ∧ win0_6.index t 1 = 0) t
  unfold blk6 iblk
  rw [View.read_apply]
  show V m c main_arg8 _ = V m c main_arg8 _
  congr 1
  funext a
  apply Fin.ext
  match a with
  | ⟨0, _⟩ => show win0_6.index t 0 * 64 + 1 * r.val = r.val; rw [hi.1]; omega
  | ⟨1, _⟩ => show win0_6.index t 1 * 1 + 1 * k.val = k.val; rw [hi.2]; omega

theorem blk7_apply (c : Dev nD) (t : Fin cfg0.N) (r : Fin 1) (k : Fin 1) :
    blk7 m c t (ix2 r k) = (V m c main_v17 : S1x1.Idx → EReal) (ix2 r k) := by
  have hi : win0_7.index t 0 = 0 ∧ win0_7.index t 1 = 0 :=
    (by decide +kernel : ∀ t : Fin grid0.N, win0_7.index t 0 = 0 ∧ win0_7.index t 1 = 0) t
  unfold blk7 iblk
  rw [View.read_apply]
  show V m c main_v17 _ = V m c main_v17 _
  congr 1
  funext a
  apply Fin.ext
  match a with
  | ⟨0, _⟩ => show win0_7.index t 0 * 1 + 1 * r.val = r.val; rw [hi.1]; omega
  | ⟨1, _⟩ => show win0_7.index t 1 * 1 + 1 * k.val = k.val; rw [hi.2]; omega

end Cert.KernelIdeal.KValue

end
-- ==== Proof.Spec.lean ====
/-
  The per-sample term of a variational autoencoder's evidence lower bound, as one function of a row of the
  data, a row of the noise and the four affine maps' weights, on the extended reals.

  For a data row `x` (4096 entries) and a noise row `ε` (64 entries):
    μ_j  = Σ_k x_k · Wμ_{k j} + bμ_j                 (the encoder's mean, 64 entries)
    s    = Σ_k x_k · Wσ_k + bσ                       (the encoder's scale, one number)
    z_j  = μ_j + s² · ε_j                            (the reparametrised latent)
    x̂_q  = Σ_j z_j · Vμ_{j q} + cμ_q                 (the decoder's mean, 4096 entries)
    ŝ    = Σ_j z_j · Vσ_j + cσ                       (the decoder's scale)
  the isotropic variances are the fourth powers s⁴ and ŝ⁴, and the term is
    log q(z | x) − log p(x | z) − log p(z)
  with log N(y; m, v·I_d) = −½ · (d·log 2π + d·log v + |y − m|² / v) and log p(z) = −½ · (64·log 2π + |z|²).
  The constants are kept as the float words both programs print (64, 4096, 64·log 2π, 4096·log 2π, −½): the same
  word on both sides is never evaluated.

  Also here: the two re-indexings of finite sums in a commutative monoid that the tiling uses — 16384 rows as 32
  tiles of 512, 4096 columns as 8 chunks of 512.
-/
import Idealize.ShloMosaic.PureOps.Ideal
import Idealize.ShloMosaic.Lib.ValueIdx
import Mathlib.Algebra.BigOperators.Fin
import Mathlib.Logic.Equiv.Fin.Basic

noncomputable section

namespace Cert.Elbo

open Idealize.ShloMosaic

/-- The float word of `64`. -/
abbrev c64 : EReal := Ideal.ofBits .f32 0x42800000#32
/-- The float word nearest `64 · log 2π`. -/
abbrev c64log2pi : EReal := Ideal.ofBits .f32 0x42EB3F8E#32
/-- The float word of `4096`. -/
abbrev c4096 : EReal := Ideal.ofBits .f32 0x45800000#32
/-- The float word nearest `4096 · log 2π`. -/
abbrev c4096log2pi : EReal := Ideal.ofBits .f32 0x45EB3F8E#32
/-- The float word of `-1/2`. -/
abbrev cNegHalf : EReal := Ideal.ofBits .f32 0xBF000000#32

/-- An affine map's output coordinate: `Σ_k v_k · w_k + b`. -/
def affine {n : ℕ} (v w : Fin n → EReal) (b : EReal) : EReal := (∑ k, v k * w k) + b

/-- The fourth power as the programs take it: the square of the square. -/
def fourth (s : EReal) : EReal := (s * s) * (s * s)

/-- The squared distance `Σ_j (y_j − m_j)²`. -/
def sqDist {n : ℕ} (y m : Fin n → EReal) : EReal := ∑ j, (y j - m j) * (y j - m j)

/-- The squared norm `Σ_j y_j²`. -/
def sqNorm {n : ℕ} (y : Fin n → EReal) : EReal := ∑ j, y j * y j

/-- `−½ · ((d·log 2π + d · log v) + sq / v)`: the log-density of an isotropic Gaussian of dimension `d` and variance `v`
    at squared distance `sq` from its mean, `cd` and `cdl` the words of `d` and `d·log 2π`. -/
def logGauss (cd cdl sq v : EReal) : EReal := cNegHalf * ((cdl + cd * Ideal.log v) + Ideal.div sq v)

/-- The encoder's mean of a row. -/
def encMean (x : Fin 4096 → EReal) (Wmu : Fin 4096 → Fin 64 → EReal) (bmu : Fin 64 → EReal) (j : Fin 64) : EReal :=
  affine x (fun k => Wmu k j) (bmu j)

/-- The reparametrised latent of a row. -/
def latent (mu : Fin 64 → EReal) (s : EReal) (eps : Fin 64 → EReal) (j : Fin 64) : EReal := mu j + (s * s) * eps j

/-- The decoder's mean of a latent. -/
def decMean (z : Fin 64 → EReal) (Vmu : Fin 64 → Fin 4096 → EReal) (cmu : Fin 4096 → EReal) (q : Fin 4096) : EReal :=
  affine z (fun j => Vmu j q) (cmu q)

/-- The term from its intermediate quantities: `log q(z|x) − log p(x|z) − log p(z)`. -/
def termOf (x : Fin 4096 → EReal) (mu z : Fin 64 → EReal) (xhat : Fin 4096 → EReal) (s shat : EReal) : EReal :=
  (logGauss c64 c64log2pi (sqDist z mu) (fourth s) - logGauss c4096 c4096log2pi (sqDist x xhat) (fourth shat))
    - cNegHalf * (c64log2pi + sqNorm z)

/-- One sample's term of the bound. -/
def rowTerm (x : Fin 4096 → EReal) (eps : Fin 64 → EReal) (Wmu : Fin 4096 → Fin 64 → EReal) (bmu : Fin 64 → EReal)
    (Wsig : Fin 4096 → EReal) (bsig : EReal) (Vmu : Fin 64 → Fin 4096 → EReal) (cmu : Fin 4096 → EReal)
    (Vsig : Fin 64 → EReal) (csig : EReal) : EReal :=
  termOf x (encMean x Wmu bmu) (latent (encMean x Wmu bmu) (affine x Wsig bsig) eps)
    (decMean (latent (encMean x Wmu bmu) (affine x Wsig bsig) eps) Vmu cmu) (affine x Wsig bsig)
    (affine (latent (encMean x Wmu bmu) (affine x Wsig bsig) eps) Vsig csig)

/-! ## The bound over the argument arrays -/

open Idealize.ShloMosaic.ValueIdx

/-- Sample `n`'s term, read off the ten argument arrays: row `n` of the data and of the noise, the encoder's two affine
    maps (the scale's weight a column, its bias one number), the decoder's two. -/
def rowOf (a0 : (⟨2, ![16384, 4096]⟩ : Shape).Idx → EReal) (a1 : (⟨2, ![16384, 64]⟩ : Shape).Idx → EReal)
    (a2 : (⟨2, ![4096, 64]⟩ : Shape).Idx → EReal) (a3 : (⟨1, ![64]⟩ : Shape).Idx → EReal)
    (a4 : (⟨2, ![4096, 1]⟩ : Shape).Idx → EReal) (a5 : (⟨1, ![1]⟩ : Shape).Idx → EReal)
    (a6 : (⟨2, ![64, 4096]⟩ : Shape).Idx → EReal) (a7 : (⟨1, ![4096]⟩ : Shape).Idx → EReal)
    (a8 : (⟨2, ![64, 1]⟩ : Shape).Idx → EReal) (a9 : (⟨1, ![1]⟩ : Shape).Idx → EReal) (n : Fin 16384) : EReal :=
  rowTerm (fun k => a0 (ix2 n k)) (fun j => a1 (ix2 n j)) (fun k j => a2 (ix2 k j)) (fun j => a3 (ix1 j))
    (fun k => a4 (ix2 k 0)) (a5 (ix1 0)) (fun j q => a6 (ix2 j q)) (fun q => a7 (ix1 q)) (fun j => a8 (ix2 j 0)) (a9 (ix1 0))

/-- The bound: the sum of the 16384 samples' terms. -/
def total (a0 : (⟨2, ![16384, 4096]⟩ : Shape).Idx → EReal) (a1 : (⟨2, ![16384, 64]⟩ : Shape).Idx → EReal)
    (a2 : (⟨2, ![4096, 64]⟩ : Shape).Idx → EReal) (a3 : (⟨1, ![64]⟩ : Shape).Idx → EReal)
    (a4 : (⟨2, ![4096, 1]⟩ : Shape).Idx → EReal) (a5 : (⟨1, ![1]⟩ : Shape).Idx → EReal)
    (a6 : (⟨2, ![64, 4096]⟩ : Shape).Idx → EReal) (a7 : (⟨1, ![4096]⟩ : Shape).Idx → EReal)
    (a8 : (⟨2, ![64, 1]⟩ : Shape).Idx → EReal) (a9 : (⟨1, ![1]⟩ : Shape).Idx → EReal) : EReal :=
  ∑ n : Fin 16384, rowOf a0 a1 a2 a3 a4 a5 a6 a7 a8 a9 n

/-! ## Finite sums cut into equal runs -/

variable {M : Type*} [AddCommMonoid M]

/-- A sum over `a · b` indices is the sum over `a` runs of the sums over each run's `b` indices. -/
theorem sum_runs (a b : ℕ) (f : Fin (a * b) → M) :
    ∑ n, f n = ∑ t : Fin a, ∑ r : Fin b, f ⟨b * t.val + r.val, by
      have := t.isLt; have := r.isLt
      calc b * t.val + r.val < b * t.val + b := by omega
        _ = b * (t.val + 1) := by ring
        _ ≤ b * a := Nat.mul_le_mul_left b (by omega)
        _ = a * b := Nat.mul_comm b a⟩ := by
  rw [← Equiv.sum_comp finProdFinEquiv f, Fintype.sum_prod_type]
  refine Finset.sum_congr rfl fun t _ => Finset.sum_congr rfl fun r _ => congrArg f (Fin.ext ?_)
  simp [finProdFinEquiv, Nat.add_comm]

/-- 16384 rows are 32 tiles of 512. -/
theorem sum_rows (f : Fin 16384 → M) :
    ∑ n, f n = ∑ t : Fin 32, ∑ r : Fin 512, f ⟨512 * t.val + r.val, by have := t.isLt; have := r.isLt; omega⟩ :=
  sum_runs 32 512 f

/-- 4096 columns are 8 chunks of 512. -/
theorem sum_cols (g : Fin 4096 → M) :
    ∑ q, g q = ∑ c : Fin 8, ∑ j : Fin 512, g ⟨512 * c.val + j.val, by have := c.isLt; have := j.isLt; omega⟩ :=
  sum_runs 8 512 g

end Cert.Elbo

end
-- ==== Proof.TileSum.lean ====
/-
  The kernel's accumulation over its 32 grid points, as numbers: a point's tile contributes the sum of its 512 rows'
  per-sample terms; the accumulator starts from zero at the first point and adds one tile's sum per point.
-/
import proofs.«126403_j42202348650518_1_alg».proof.Proof.BlockReads
import proofs.«126403_j42202348650518_1_alg».proof.Proof.Spec
import Mathlib.Algebra.BigOperators.Fin

noncomputable section

namespace Cert.KernelIdeal.KValue

open Cert.KernelIdeal Cert.KernelIdeal.Gen Cert.KernelIdeal.Body Idealize.ShloMosaic Idealize.ShloMosaic.ValueIdx
  Idealize.ShloMosaic.TcCoe Idealize.SL.Sem

variable (m : (ℓ : Loc nD τ sig) → Buf (Elt Ideal) ℓ)

/-- The sum, over the 512 rows of point `t`'s tile, of the per-sample terms, from the point's blocks. -/
def tileSum (c : Dev nD) (t : Fin cfg0.N) : EReal :=
  ∑ r : Fin 512, Elbo.rowTerm (tileRow (blk0 m c t) r) (noiseRow (blk1 m c t) r) (packedWmu (blk2 m c t)) (packedBmu (blk3 m c t))
    (packedWsig (blk2 m c t)) (packedBsig (blk3 m c t)) (fun j q => blk4 m c t (ix2 j q)) (fun q => blk5 m c t (ix2 0 q))
    (fun j => blk6 m c t (ix2 j 0)) (blk7 m c t (ix2 0 0))

/-- The accumulator after point `n`: zero plus the first tile's sum, then one more tile's sum per point. -/
def accUpTo (c : Dev nD) : (n : ℕ) → n < cfg0.N → EReal
  | 0, h => 0 + tileSum m c ⟨0, h⟩
  | n + 1, h => accUpTo c n (Nat.lt_of_succ_lt h) + tileSum m c ⟨n + 1, h⟩

/-- The running sum in closed form: the sum of the tiles' sums up to the point. -/
theorem accUpTo_eq_sum (c : Dev nD) : ∀ (n : ℕ) (h : n < cfg0.N),
    accUpTo m c n h = ∑ s : Fin (n + 1), tileSum m c ⟨s.val, lt_of_lt_of_le s.isLt h⟩
  | 0, h => by
    rw [accUpTo, zero_add, Fin.sum_univ_one]; rfl
  | n + 1, h => by
    rw [accUpTo, accUpTo_eq_sum c n (Nat.lt_of_succ_lt h)]
    exact (Fin.sum_univ_castSucc (fun s : Fin (n + 1 + 1) => tileSum m c ⟨s.val, lt_of_lt_of_le s.isLt h⟩)).symm

end Cert.KernelIdeal.KValue

end
-- ==== Proof.BodyEnc.lean ====
/-
  The encoder's quantities of one tile, read at an index at the extended reals: the packed product's columns 0 … 63 are
  the encoder's means, its column 64 the encoder's scale; the latent; the two variances (fourth powers of the scales).
-/
import proofs.«126403_j42202348650518_1_alg».proof.Proof.BodyDef
import proofs.«126403_j42202348650518_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

private theorem lhs_enc_0 (i : S512x128.Idx) (q : dot_S512x4096_S4096x128_S512x128_1_0_0_1_n_n.contr.Idx) :
    (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
private theorem lhs_enc_1 (i : S512x128.Idx) (q : dot_S512x4096_S4096x128_S512x128_1_0_0_1_n_n.contr.Idx) :
    (dot_S512x4096_S4096x128_S512x128_1_0_0_1_n_n.lhsIdx i q 1).val = (q ⟨0, by decide⟩).val :=
  dot_S512x4096_S4096x128_S512x128_1_0_0_1_n_n.lhsIdx_val_of_single rfl i q
private theorem rhs_enc_0 (i : S512x128.Idx) (q : dot_S512x4096_S4096x128_S512x128_1_0_0_1_n_n.contr.Idx) :
    (dot_S512x4096_S4096x128_S512x128_1_0_0_1_n_n.rhsIdx i q 0).val = (q ⟨0, by decide⟩).val :=
  dot_S512x4096_S4096x128_S512x128_1_0_0_1_n_n.rhsIdx_val_of_single rfl i q
private theorem rhs_enc_1 (i : S512x128.Idx) (q : dot_S512x4096_S4096x128_S512x128_1_0_0_1_n_n.contr.Idx) :
    (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl

/-- The product into the zero accumulator, read at `(r, j)`: the sum over the contracted coordinate. -/
private theorem matmul_enc_apply (a : FVec Ideal S512x4096 .bf16) (b : FVec Ideal S4096x128 .bf16) (r : Fin 512) (j : Fin 128) :
    matmul (F := Ideal) dot_S512x4096_S4096x128_S512x128_1_0_0_1_n_n none a b (constant (F := Ideal) S512x128 .f32 0x00000000#32) (ix2 r j)
      = ∑ k : Fin 4096, a (ix2 r k) * b (ix2 k j) := by
  simp only [matmul]
  rw [Ideal.matmul_constant_zero_apply, ← Equiv.sum_comp (contrEquiv1 dot_S512x4096_S4096x128_S512x128_1_0_0_1_n_n 4096 rfl rfl).symm]
  refine Finset.sum_congr rfl fun k _ => ?_
  have hk := contrEquiv1_symm_val dot_S512x4096_S4096x128_S512x128_1_0_0_1_n_n 4096 rfl rfl k
  have el : dot_S512x4096_S4096x128_S512x128_1_0_0_1_n_n.lhsIdx (ix2 r j) ((contrEquiv1 dot_S512x4096_S4096x128_S512x128_1_0_0_1_n_n 4096 rfl rfl).symm k) = ix2 r k := funext fun ax => Fin.ext (by
    match ax with
    | ⟨0, _⟩ => exact lhs_enc_0 _ _
    | ⟨1, _⟩ => exact (lhs_enc_1 _ _).trans hk)
  have er : dot_S512x4096_S4096x128_S512x128_1_0_0_1_n_n.rhsIdx (ix2 r j) ((contrEquiv1 dot_S512x4096_S4096x128_S512x128_1_0_0_1_n_n 4096 rfl rfl).symm k) = ix2 k j := funext fun ax => Fin.ext (by
    match ax with
    | ⟨0, _⟩ => exact (rhs_enc_0 _ _).trans hk
    | ⟨1, _⟩ => exact rhs_enc_1 _ _)
  rw [el, er]

private theorem lhs_dsc_0 (i : S512x1.Idx) (q : dot_S512x64_S64x1_S512x1_1_0_0_1_n_n.contr.Idx) :
    (dot_S512x64_S64x1_S512x1_1_0_0_1_n_n.lhsIdx i q 0).val = (i 0).val := by
  unfold DotDims.lhsIdx
  rw [dif_neg (show ¬(0 : Fin S512x64.rank) ∈ dot_S512x64_S64x1_S512x1_1_0_0_1_n_n.lhsBatch by decide), dif_pos (show (0 : Fin S512x64.rank) ∈ dot_S512x64_S64x1_S512x1_1_0_0_1_n_n.lhsNonContracting by decide)]
  rfl
private theorem lhs_dsc_1 (i : S512x1.Idx) (q : dot_S512x64_S64x1_S512x1_1_0_0_1_n_n.contr.Idx) :
    (dot_S512x64_S64x1_S512x1_1_0_0_1_n_n.lhsIdx i q 1).val = (q ⟨0, by decide⟩).val :=
  dot_S512x64_S64x1_S512x1_1_0_0_1_n_n.lhsIdx_val_of_single rfl i q
private theorem rhs_dsc_0 (i : S512x1.Idx) (q : dot_S512x64_S64x1_S512x1_1_0_0_1_n_n.contr.Idx) :
    (dot_S512x64_S64x1_S512x1_1_0_0_1_n_n.rhsIdx i q 0).val = (q ⟨0, by decide⟩).val :=
  dot_S512x64_S64x1_S512x1_1_0_0_1_n_n.rhsIdx_val_of_single rfl i q
private theorem rhs_dsc_1 (i : S512x1.Idx) (q : dot_S512x64_S64x1_S512x1_1_0_0_1_n_n.contr.Idx) :
    (dot_S512x64_S64x1_S512x1_1_0_0_1_n_n.rhsIdx i q 1).val = (i 1).val := by
  unfold DotDims.rhsIdx
  rw [dif_neg (show ¬(1 : Fin S64x1.rank) ∈ dot_S512x64_S64x1_S512x1_1_0_0_1_n_n.rhsBatch by decide), dif_pos (show (1 : Fin S64x1.rank) ∈ dot_S512x64_S64x1_S512x1_1_0_0_1_n_n.rhsNonContracting by decide)]
  rfl

/-- The product into the zero accumulator, read at `(r, j)`: the sum over the contracted coordinate. -/
private theorem matmul_dsc_apply (a : FVec Ideal S512x64 .bf16) (b : FVec Ideal S64x1 .bf16) (r : Fin 512) (j : Fin 1) :
    matmul (F := Ideal) dot_S512x64_S64x1_S512x1_1_0_0_1_n_n none a b (constant (F := Ideal) S512x1 .f32 0x00000000#32) (ix2 r j)
      = ∑ k : Fin 64, a (ix2 r k) * b (ix2 k j) := by
  simp only [matmul]
  rw [Ideal.matmul_constant_zero_apply, ← Equiv.sum_comp (contrEquiv1 dot_S512x64_S64x1_S512x1_1_0_0_1_n_n 64 rfl rfl).symm]
  refine Finset.sum_congr rfl fun k _ => ?_
  have hk := contrEquiv1_symm_val dot_S512x64_S64x1_S512x1_1_0_0_1_n_n 64 rfl rfl k
  have el : dot_S512x64_S64x1_S512x1_1_0_0_1_n_n.lhsIdx (ix2 r j) ((contrEquiv1 dot_S512x64_S64x1_S512x1_1_0_0_1_n_n 64 rfl rfl).symm k) = ix2 r k := funext fun ax => Fin.ext (by
    match ax with
    | ⟨0, _⟩ => exact lhs_dsc_0 _ _
    | ⟨1, _⟩ => exact (lhs_dsc_1 _ _).trans hk)
  have er : dot_S512x64_S64x1_S512x1_1_0_0_1_n_n.rhsIdx (ix2 r j) ((contrEquiv1 dot_S512x64_S64x1_S512x1_1_0_0_1_n_n 64 rfl rfl).symm k) = ix2 k j := funext fun ax => Fin.ext (by
    match ax with
    | ⟨0, _⟩ => exact (rhs_dsc_0 _ _).trans hk
    | ⟨1, _⟩ => exact rhs_dsc_1 _ _)
  rw [el, er]

/-! ### Three small layout operations read at coordinates -/

/-- An `[a, 1]` column broadcast to `[a, b]` reads, at `(p, c)`, the column at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast to `[a, 1]` reads its one entry everywhere. -/
private theorem broadcastTo_11_a1_apply {α : Type} {a : ℕ} (v : (⟨2, ![1, 1]⟩ : Shape).Idx → α)
    (h : (⟨2, ![1, 1]⟩ : Shape).Broadcasts ⟨2, ![a, 1]⟩) (p : Fin a) (c : Fin 1) :
    broadcastTo ⟨2, ![a, 1]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- An `[a, 1]` column cast to `[a]` reads, at `i`, the column at row `i`. -/
private theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

variable (x0 : Vec Ideal S512x4096 .f32) (x1 : Vec Ideal S512x64 .f32) (x2 : Vec Ideal S4096x128 .f32)
  (x3 : Vec Ideal S1x128 .f32) (x6 : Vec Ideal S64x1 .f32) (x7 : Vec Ideal S1x1 .f32)

/-- Row `r`'s encoder scale. -/
abbrev encScaleOf (r : Fin 512) : EReal := Elbo.affine (tileRow x0 r) (packedWsig x2) (packedBsig x3)
/-- Row `r`'s encoder mean. -/
abbrev encMeanOf (r : Fin 512) : Fin 64 → EReal := Elbo.encMean (tileRow x0 r) (packedWmu x2) (packedBmu x3)
/-- Row `r`'s latent. -/
abbrev latentOf (r : Fin 512) : Fin 64 → EReal := Elbo.latent (encMeanOf x0 x2 x3 r) (encScaleOf x0 x2 x3 r) (noiseRow x1 r)

/-- The packed product plus the packed bias, read at `(r, j)`. -/
private theorem pay3_apply (r : Fin 512) (j : Fin 128) :
    k0_pay3 (F := Ideal) x0 x2 x3 (ix2 r j) = (∑ k : Fin 4096, x0 (ix2 r k) * x2 (ix2 k j)) + x3 (ix2 0 j) := by
  unfold k0_pay3
  simp only [shapeCast_self, addf_apply]
  rw [matmul_enc_apply, broadcastTo_1b_ab_apply]
  rfl

theorem pay4_apply (r : Fin 512) (j : Fin 64) :
    k0_pay4 (F := Ideal) x0 x2 x3 (ix2 r j) = encMeanOf x0 x2 x3 r j := by
  unfold k0_pay4
  refine (slice2_axis1_apply (n0 := 512) (n1 := 128) (m := 64) 0 (k0_pay3 (F := Ideal) x0 x2 x3)
    slices_S512x128_o0_0_S512x64 r j (Fin.castLE (by decide) j) (Nat.zero_add _).symm).trans ?_
  rw [pay3_apply]
  rfl

theorem pay5_apply (r : Fin 512) :
    k0_pay5 (F := Ideal) x0 x2 x3 (ix2 r 0) = encScaleOf x0 x2 x3 r := by
  unfold k0_pay5
  refine (slice2_axis1_apply 64 _ _ r (0 : Fin 1) (64 : Fin 128) rfl).trans ?_
  rw [pay3_apply]
  rfl

theorem pay6_apply (r : Fin 512) (j : Fin 64) :
    k0_pay6 (F := Ideal) x0 x2 x3 x1 (ix2 r j) = latentOf x0 x1 x2 x3 r j := by
  unfold k0_pay6
  simp only [addf_apply, mulf_apply]
  rw [broadcastTo_a1_ab_apply, mulf_apply, pay4_apply, pay5_apply]
  rfl

theorem pay8_apply (r : Fin 512) (j : Fin 64) :
    k0_pay8 (F := Ideal) x0 x2 x3 x1 (ix2 r j) = latentOf x0 x1 x2 x3 r j := by
  unfold k0_pay8
  exact pay6_apply x0 x1 x2 x3 r j

theorem pay7_apply (r : Fin 512) :
    k0_pay7 (F := Ideal) x0 x2 x3 (ix1 r) = Elbo.fourth (encScaleOf x0 x2 x3 r) := by
  unfold k0_pay7
  simp only [mulf_apply]
  rw [shapeCast_a1_a_apply, pay5_apply]
  rfl

theorem pay9_apply (r : Fin 512) :
    k0_pay9 (F := Ideal) x0 x2 x3 x1 x6 x7 (ix1 r)
      = Elbo.fourth (Elbo.affine (latentOf x0 x1 x2 x3 r) (fun j => x6 (ix2 j 0)) (x7 (ix2 0 0))) := by
  unfold k0_pay9
  simp only [shapeCast_self, mulf_apply]
  rw [shapeCast_a1_a_apply, addf_apply, matmul_dsc_apply, broadcastTo_11_a1_apply]
  simp only [pay8_apply, truncf_apply]
  rfl

end Cert.KernelIdeal.Body

end
-- ==== Proof.BodyDec.lean ====
/-
  The decoder's squared reconstruction error of one tile, read at a row at the extended reals: the eight chunks'
  lane sums, accumulated from zero, are the sum over all 4096 columns.
-/
import proofs.«126403_j42202348650518_1_alg».proof.Proof.BodyDef
import proofs.«126403_j42202348650518_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ### The product of the latent with one chunk of the decoder's weight, at an entry -/

theorem lhs_dec_0 (i : S512x512.Idx) (q : dot_S512x64_S64x512_S512x512_1_0_0_1_n_n.contr.Idx) :
    (dot_S512x64_S64x512_S512x512_1_0_0_1_n_n.lhsIdx i q 0).val = (i 0).val := by
  unfold DotDims.lhsIdx
  rw [dif_neg (show ¬(0 : Fin S512x64.rank) ∈ dot_S512x64_S64x512_S512x512_1_0_0_1_n_n.lhsBatch by decide),
    dif_pos (show (0 : Fin S512x64.rank) ∈ dot_S512x64_S64x512_S512x512_1_0_0_1_n_n.lhsNonContracting by decide)]
  rfl
theorem lhs_dec_1 (i : S512x512.Idx) (q : dot_S512x64_S64x512_S512x512_1_0_0_1_n_n.contr.Idx) :
    (dot_S512x64_S64x512_S512x512_1_0_0_1_n_n.lhsIdx i q 1).val = (q ⟨0, by decide⟩).val :=
  dot_S512x64_S64x512_S512x512_1_0_0_1_n_n.lhsIdx_val_of_single rfl i q
theorem rhs_dec_0 (i : S512x512.Idx) (q : dot_S512x64_S64x512_S512x512_1_0_0_1_n_n.contr.Idx) :
    (dot_S512x64_S64x512_S512x512_1_0_0_1_n_n.rhsIdx i q 0).val = (q ⟨0, by decide⟩).val :=
  dot_S512x64_S64x512_S512x512_1_0_0_1_n_n.rhsIdx_val_of_single rfl i q
theorem rhs_dec_1 (i : S512x512.Idx) (q : dot_S512x64_S64x512_S512x512_1_0_0_1_n_n.contr.Idx) :
    (dot_S512x64_S64x512_S512x512_1_0_0_1_n_n.rhsIdx i q 1).val = (i 1).val := by
  unfold DotDims.rhsIdx
  rw [dif_neg (show ¬(1 : Fin S64x512.rank) ∈ dot_S512x64_S64x512_S512x512_1_0_0_1_n_n.rhsBatch by decide),
    dif_pos (show (1 : Fin S64x512.rank) ∈ dot_S512x64_S64x512_S512x512_1_0_0_1_n_n.rhsNonContracting by decide)]
  rfl

/-- Entry (r, j) of the product into the zero splat is the sum over the 64 latent coordinates. -/
theorem decMatmul_apply (z : FVec Ideal S512x64 .bf16) (w : FVec Ideal S64x512 .bf16) (r j : Fin 512) :
    matmul dot_S512x64_S64x512_S512x512_1_0_0_1_n_n none z w (constant (F := Ideal) S512x512 .f32 0x00000000#32) (ix2 r j)
      = ∑ i : Fin 64, z (ix2 r i) * w (ix2 i j) := by
  simp only [matmul]
  rw [Ideal.matmul_constant_zero_apply,
    ← Equiv.sum_comp (contrEquiv1 dot_S512x64_S64x512_S512x512_1_0_0_1_n_n 64 rfl rfl).symm]
  refine Finset.sum_congr rfl fun k _ => ?_
  have hk := contrEquiv1_symm_val dot_S512x64_S64x512_S512x512_1_0_0_1_n_n 64 rfl rfl k
  have el : dot_S512x64_S64x512_S512x512_1_0_0_1_n_n.lhsIdx (ix2 r j)
      ((contrEquiv1 dot_S512x64_S64x512_S512x512_1_0_0_1_n_n 64 rfl rfl).symm k) = ix2 r k := funext fun a => Fin.ext (by
    match a with
    | ⟨0, _⟩ => exact lhs_dec_0 _ _
    | ⟨1, _⟩ => exact (lhs_dec_1 _ _).trans hk)
  have er : dot_S512x64_S64x512_S512x512_1_0_0_1_n_n.rhsIdx (ix2 r j)
      ((contrEquiv1 dot_S512x64_S64x512_S512x512_1_0_0_1_n_n 64 rfl rfl).symm k) = ix2 k j := funext fun a => Fin.ext (by
    match a with
    | ⟨0, _⟩ => exact (rhs_dec_0 _ _).trans hk
    | ⟨1, _⟩ => exact rhs_dec_1 _ _)
  rw [el, er]

/-! ### A lane sum at a row -/

/-- The sum over the lanes (axis 1) of a two-axis vector, read at row r, is the sum of the row's entries. -/
theorem laneSum_apply {n m : ℕ} (h : (⟨2, ![n, m]⟩ : Shape).Reduces [1] ⟨1, ![n]⟩) (v : FVec Ideal ⟨2, ![n, m]⟩ .f32)
    (hφ : FKind.Formats .f32) (hacc : (0x00000000#32 : BitVec 32) = 0x00000000#32) (r : Fin n) :
    multiReduction .add [1] ⟨1, ![n]⟩ v 0x00000000#32 h hφ hacc (ix1 r) = ∑ j : Fin m, v (ix2 r j) := by
  refine (Ideal.multiReduction_add_single v 0x00000000#32 h hφ hacc (ix1 r)).trans ?_
  show ∑ j : Fin m, _ = _
  refine Finset.sum_congr rfl fun j _ => congrArg v (funext fun a => Fin.ext ?_)
  match a with
  | ⟨0, _⟩ => rfl
  | ⟨1, _⟩ => rfl

/-! ### One chunk's lane sums -/

/-- One chunk's contribution as the body computes it: the lane sums of the squared difference between the chunk of the
    data and the chunk of the decoder's mean. -/
def chunkTerm (z : FVec Ideal S512x64 .bf16) (xcv : Vec Ideal S512x512 .f32) (wcv : Vec Ideal S64x512 .f32)
    (bcv : Vec Ideal S1x512 .f32) : FVec Ideal S512 .f32 :=
  multiReduction .add [1] S512
    (mulf
      (subf xcv (addf
        (matmul dot_S512x64_S64x512_S512x512_1_0_0_1_n_n none z (truncf .bf16 wcv bitsLt_bf16_f32)
          (constant S512x512 .f32 0x00000000#32))
        (broadcastTo S512x512 (shapeCast S1x512 bcv shapeCasts_S1x512_S1x512) broadcasts_S1x512_S512x512)))
      (subf xcv (addf
        (matmul dot_S512x64_S64x512_S512x512_1_0_0_1_n_n none z (truncf .bf16 wcv bitsLt_bf16_f32)
          (constant S512x512 .f32 0x00000000#32))
        (broadcastTo S512x512 (shapeCast S1x512 bcv shapeCasts_S1x512_S1x512) broadcasts_S1x512_S512x512))))
    0x00000000#32 reduces_S512x512_S512 (.inl rfl) rfl

/-- Row r of a chunk's contribution: the sum over the chunk's 512 columns of the squared error. -/
theorem chunkTerm_apply (z : FVec Ideal S512x64 .bf16) (xcv : Vec Ideal S512x512 .f32) (wcv : Vec Ideal S64x512 .f32)
    (bcv : Vec Ideal S1x512 .f32) (r : Fin 512) :
    chunkTerm z xcv wcv bcv (ix1 r)
      = ∑ j : Fin 512, (xcv (ix2 r j) - ((∑ i : Fin 64, z (ix2 r i) * wcv (ix2 i j)) + bcv (ix2 0 j)))
          * (xcv (ix2 r j) - ((∑ i : Fin 64, z (ix2 r i) * wcv (ix2 i j)) + bcv (ix2 0 j))) := by
  unfold chunkTerm
  refine (laneSum_apply reduces_S512x512_S512 _ _ _ r).trans ?_
  refine Finset.sum_congr rfl fun j _ => ?_
  rw [mulf_apply, subf_apply, addf_apply, decMatmul_apply, broadcastTo_1b_ab_apply, shapeCast_self]
  rfl

/-- The accumulated vector is the zero vector plus the eight chunks' contributions, added in order. -/
theorem sqErrChunks_eq (z : FVec Ideal S512x64 .bf16) (xc : Fin 8 → Vec Ideal S512x512 .f32)
    (wc : Fin 8 → Vec Ideal S64x512 .f32) (bc : Fin 8 → Vec Ideal S1x512 .f32) :
    sqErrChunks (F := Ideal) z xc wc bc
      = addf (addf (addf (addf (addf (addf (addf (addf (k0_pay10 (F := Ideal))
          (chunkTerm z (xc 0) (wc 0) (bc 0))) (chunkTerm z (xc 1) (wc 1) (bc 1))) (chunkTerm z (xc 2) (wc 2) (bc 2)))
          (chunkTerm z (xc 3) (wc 3) (bc 3))) (chunkTerm z (xc 4) (wc 4) (bc 4))) (chunkTerm z (xc 5) (wc 5) (bc 5)))
          (chunkTerm z (xc 6) (wc 6) (bc 6))) (chunkTerm z (xc 7) (wc 7) (bc 7)) := rfl

/-- Row `r` of the chunk-accumulated squared error is `Σ_q (x_q − x̂_q)²` over all 4096 columns, `x̂` the decoder's mean of the
    row's latent — for slices that are the chunks of the whole arrays. -/
theorem sqErrChunks_apply (z : FVec Ideal S512x64 .bf16) (xc : Fin 8 → Vec Ideal S512x512 .f32)
    (wc : Fin 8 → Vec Ideal S64x512 .f32) (bc : Fin 8 → Vec Ideal S1x512 .f32)
    (x0 : Vec Ideal S512x4096 .f32) (x4 : Vec Ideal S64x4096 .f32) (x5 : Vec Ideal S1x4096 .f32)
    (hxc : ∀ c, xc c = colSlice x0 c) (hwc : ∀ c, wc c = colSlice x4 c) (hbc : ∀ c, bc c = colSlice x5 c) (r : Fin 512) :
    sqErrChunks (F := Ideal) z xc wc bc (ix1 r)
      = Elbo.sqDist (tileRow x0 r) (Elbo.decMean (fun j => z (ix2 r j)) (fun j q => x4 (ix2 j q)) (fun q => x5 (ix2 0 q))) := by
  obtain rfl : xc = colSlice x0 := funext hxc
  obtain rfl : wc = colSlice x4 := funext hwc
  obtain rfl : bc = colSlice x5 := funext hbc
  rw [sqErrChunks_eq]
  simp only [addf_apply, chunkTerm_apply]
  have h0 : k0_pay10 (F := Ideal) (ix1 r) = 0 := by
    unfold k0_pay10
    rw [broadcast_apply]
    exact Ideal.ofBits_zero_f32
  rw [h0, zero_add]
  unfold Elbo.sqDist Elbo.decMean Elbo.affine
  rw [Elbo.sum_cols, Fin.sum_univ_eight]
  rfl

end Cert.KernelIdeal.Body

end
-- ==== Proof.BodyValue.lean ====
/-
  One grid point's accumulator at the extended reals: its contents before plus the sum, over the tile's 512 rows, of the
  per-sample terms of the bound.
-/
import proofs.«126403_j42202348650518_1_alg».proof.Proof.BodyEnc
import proofs.«126403_j42202348650518_1_alg».proof.Proof.BodyDec

noncomputable section

namespace Cert.KernelIdeal.Body

open Cert.KernelIdeal Cert.KernelIdeal.Gen Idealize.ShloMosaic Idealize.ShloMosaic.ValueIdx

/-! ### The per-row value and the tile's total, as the body computes them -/

/-- The logarithm of a vector at an index is the logarithm of the entry. -/
theorem log_apply {s : Shape} {φ : FTy} (a : FVec Ideal s φ) (i : s.Idx) : log a i = Ideal.log (a i) := rfl

/-- The per-sample value of every row, from the encoder's mean `v13`, the latent `v19`, the two variances `v22`, `v33` and
    the squared reconstruction errors `v170`: the body's operations, in its order. -/
def rowVal (v13 v19 : FVec Ideal S512x64 .f32) (v22 v33 v170 : FVec Ideal S512 .f32) : FVec Ideal S512 .f32 :=
  subf
    (subf
      (mulf (broadcast S512 (Scalar.ofBits .f32 0xBF000000#32 : Ideal .f32))
        (addf
          (addf (broadcast S512 (Scalar.ofBits .f32 0x42EB3F8E#32 : Ideal .f32))
            (mulf (broadcast S512 (Scalar.ofBits .f32 0x42800000#32 : Ideal .f32)) (log v22)))
          (divf
            (multiReduction .add [1] S512 (mulf (subf v19 v13) (subf v19 v13)) 0x00000000#32 reduces_S512x64_S512 (.inl rfl) rfl)
            v22)))
      (mulf (broadcast S512 (Scalar.ofBits .f32 0xBF000000#32 : Ideal .f32))
        (addf
          (addf (broadcast S512 (Scalar.ofBits .f32 0x45EB3F8E#32 : Ideal .f32))
            (mulf (broadcast S512 (Scalar.ofBits .f32 0x45800000#32 : Ideal .f32)) (log v33)))
          (divf v170 v33))))
    (mulf (broadcast S512 (Scalar.ofBits .f32 0xBF000000#32 : Ideal .f32))
      (addf (broadcast S512 (Scalar.ofBits .f32 0x42EB3F8E#32 : Ideal .f32))
        (multiReduction .add [1] S512 (mulf v19 v19) 0x00000000#32 reduces_S512x64_S512 (.inl rfl) rfl)))

/-- The accumulator's new contents from the per-row values: their sum, added to the contents before. -/
def accPlus (acc : Vec Ideal S1x1 .f32) (rv : FVec Ideal S512 .f32) : FVec Ideal S1x1 .f32 :=
  addf acc
    (broadcast S1x1
      (extractAt ![0, 0]
        (shapeCast S1x1
          (multiReduction .add [1] S1 (shapeCast S1x512 rv shapeCasts_S512_S1x512) 0x00000000#32 reduces_S1x512_S1 (.inl rfl) rfl)
          shapeCasts_S1_S1x1)
        inpos_S1x1_p0_0))

/-- The accumulator's one entry after: its entry before plus the sum of the 512 per-row values. -/
theorem accPlus_apply (acc : Vec Ideal S1x1 .f32) (rv : FVec Ideal S512 .f32) :
    accPlus acc rv (ix2 0 0) = acc (ix2 0 0) + ∑ r : Fin 512, rv (ix1 r) := by
  unfold accPlus
  rw [addf_apply, broadcast_apply]
  refine congrArg (acc (ix2 0 0) + ·) ?_
  unfold extractAt
  refine (shapeCast_a_1a_apply _ shapeCasts_S1_S1x1 (0 : Fin 1) (0 : Fin 1)).trans ?_
  refine (laneSum_apply reduces_S1x512_S1 _ _ _ (0 : Fin 1)).trans ?_
  exact Finset.sum_congr rfl fun r _ => shapeCast_a_1a_apply rv shapeCasts_S512_S1x512 (0 : Fin 1) r

/-- The last payload is the accumulator plus the rows' values, the last chunk's squared error added to the seven before. -/
theorem pay18_eq (v13 v19 : FVec Ideal S512x64 .f32) (v22 v33 v153 : FVec Ideal S512 .f32) (v157 : Vec Ideal S512x512 .f32)
    (v164 v165 : FVec Ideal S512x512 .f32) (v205 : Vec Ideal S1x1 .f32) :
    k0_pay18 (F := Ideal) v13 v19 v22 v33 v153 v157 v164 v165 v205
      = accPlus v205 (rowVal v13 v19 v22 v33
          (addf v153 (multiReduction .add [1] S512 (mulf (subf v157 (addf v164 v165)) (subf v157 (addf v164 v165)))
            0x00000000#32 reduces_S512x512_S512 (.inl rfl) rfl))) := rfl

/-- One grid point's output is the accumulator plus the rows' values over the encoder's quantities and the chunk-accumulated
    squared error. -/
theorem bodyOut_eq (x0 : Vec Ideal S512x4096 .f32) (x1 : Vec Ideal S512x64 .f32) (x2 : Vec Ideal S4096x128 .f32)
    (x3 : Vec Ideal S1x128 .f32) (x6 : Vec Ideal S64x1 .f32) (x7 : Vec Ideal S1x1 .f32) (xc : Fin 8 → Vec Ideal S512x512 .f32)
    (wc : Fin 8 → Vec Ideal S64x512 .f32) (bc : Fin 8 → Vec Ideal S1x512 .f32) (acc : Vec Ideal S1x1 .f32) :
    bodyOut (F := Ideal) x0 x1 x2 x3 x6 x7 xc wc bc acc
      = accPlus acc (rowVal (k0_pay4 x0 x2 x3) (k0_pay6 x0 x2 x3 x1) (k0_pay7 x0 x2 x3) (k0_pay9 x0 x2 x3 x1 x6 x7)
          (sqErrChunks (k0_pay8 x0 x2 x3 x1) xc wc bc)) := by
  unfold bodyOut k0_pay1
  rw [shapeCast_self, pay18_eq]
  rfl

/-- Row `r`'s value is the sample's term of the bound. -/
theorem row_value (x0 : Vec Ideal S512x4096 .f32) (x1 : Vec Ideal S512x64 .f32) (x2 : Vec Ideal S4096x128 .f32)
    (x3 : Vec Ideal S1x128 .f32) (x4 : Vec Ideal S64x4096 .f32) (x5 : Vec Ideal S1x4096 .f32) (x6 : Vec Ideal S64x1 .f32)
    (x7 : Vec Ideal S1x1 .f32) (r : Fin 512) :
    rowVal (k0_pay4 x0 x2 x3) (k0_pay6 x0 x2 x3 x1) (k0_pay7 x0 x2 x3) (k0_pay9 x0 x2 x3 x1 x6 x7)
        (sqErrChunks (k0_pay8 x0 x2 x3 x1) (colSlice x0) (colSlice x4) (colSlice x5)) (ix1 r)
      = Elbo.rowTerm (tileRow x0 r) (noiseRow x1 r) (packedWmu x2) (packedBmu x3)
          (packedWsig x2) (packedBsig x3) (fun j q => x4 (ix2 j q)) (fun q => x5 (ix2 0 q)) (fun j => x6 (ix2 j 0)) (x7 (ix2 0 0)) := by
  have hz : (fun j => k0_pay8 (F := Ideal) x0 x2 x3 x1 (ix2 r j)) = latentOf x0 x1 x2 x3 r :=
    funext fun j => pay8_apply x0 x1 x2 x3 r j
  have hd : (multiReduction .add [1] S512 (mulf (subf (k0_pay6 (F := Ideal) x0 x2 x3 x1) (k0_pay4 x0 x2 x3))
        (subf (k0_pay6 x0 x2 x3 x1) (k0_pay4 x0 x2 x3))) 0x00000000#32 reduces_S512x64_S512 (.inl rfl) rfl) (ix1 r)
      = Elbo.sqDist (latentOf x0 x1 x2 x3 r) (encMeanOf x0 x2 x3 r) := by
    refine (laneSum_apply reduces_S512x64_S512 _ _ _ r).trans ?_
    unfold Elbo.sqDist
    refine Finset.sum_congr rfl fun j _ => ?_
    rw [mulf_apply, subf_apply, pay6_apply, pay4_apply]
  have hn : (multiReduction .add [1] S512 (mulf (k0_pay6 (F := Ideal) x0 x2 x3 x1) (k0_pay6 x0 x2 x3 x1))
        0x00000000#32 reduces_S512x64_S512 (.inl rfl) rfl) (ix1 r)
      = Elbo.sqNorm (latentOf x0 x1 x2 x3 r) := by
    refine (laneSum_apply reduces_S512x64_S512 _ _ _ r).trans ?_
    unfold Elbo.sqNorm
    refine Finset.sum_congr rfl fun j _ => ?_
    rw [mulf_apply, pay6_apply]
  unfold rowVal
  simp only [subf_apply, mulf_apply, addf_apply, divf_apply, log_apply, broadcast_apply]
  rw [hd, hn, pay7_apply, pay9_apply,
    sqErrChunks_apply _ _ _ _ x0 x4 x5 (fun _ => rfl) (fun _ => rfl) (fun _ => rfl) r, hz]
  unfold Elbo.rowTerm Elbo.termOf Elbo.logGauss
  rfl

/-- The accumulator after a point is its contents before plus `Σ_r rowTerm(row r)`. -/
theorem bodyOut_apply (x0 : Vec Ideal S512x4096 .f32) (x1 : Vec Ideal S512x64 .f32) (x2 : Vec Ideal S4096x128 .f32)
    (x3 : Vec Ideal S1x128 .f32) (x4 : Vec Ideal S64x4096 .f32) (x5 : Vec Ideal S1x4096 .f32) (x6 : Vec Ideal S64x1 .f32)
    (x7 : Vec Ideal S1x1 .f32) (acc : Vec Ideal S1x1 .f32) :
    bodyOut (F := Ideal) x0 x1 x2 x3 x6 x7 (colSlice x0) (colSlice x4) (colSlice x5) acc (ix2 0 0)
      = acc (ix2 0 0) + ∑ r : Fin 512, Elbo.rowTerm (tileRow x0 r) (noiseRow x1 r) (packedWmu x2) (packedBmu x3)
          (packedWsig x2) (packedBsig x3) (fun j q => x4 (ix2 j q)) (fun q => x5 (ix2 0 q)) (fun j => x6 (ix2 j 0)) (x7 (ix2 0 0)) := by
  rw [bodyOut_eq, accPlus_apply]
  exact congrArg (acc (ix2 0 0) + ·) (Finset.sum_congr rfl fun r _ => row_value x0 x1 x2 x3 x4 x5 x6 x7 r)

end Cert.KernelIdeal.Body

end
-- ==== Proof.Pieces.lean ====
/-
  What each of the kernel body's three control cases leaves in the carried accumulator (and, at the last grid point, in
  the output's staging buffer), read off the pieces the generated case runs found: in every case the one composed payload
  term `Body.bodyOut` of the point's input blocks, over the accumulator's contents before — the zero vector the first
  point has just stored (`k0_pay2`), or what the point before left.

  The body loads the data tile, the decoder's mean weight and its bias in eight chunks of 512 columns; a chunk load reads
  the whole staging buffer through a unit-stride rectangle at column offset `512·c`, which is the column slice
  `Body.colSlice · c` (`ld_x0_chunk`, `ld_x4_chunk`, `ld_x5_chunk`).
-/
import proofs.«126403_j42202348650518_1_alg».proof.Proof.Gen.KernelIdeal.Frame
import proofs.«126403_j42202348650518_1_alg».proof.Proof.BodyDef
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen Cert.KernelIdeal.Body

variable {F : FTy → Type} [FloatOps F]

/-- The zero offsets of a whole-buffer access, however they are spelt. -/
theorem hz : (![0, 0] : Fin 2 → Nat) = fun _ => 0 := funext fun a => by fin_cases a <;> rfl

/-! ### A chunk load is a column slice

A load through the unit-stride rectangle of 512 columns from column `512·c`, every row, reads the array at
row `y 0`, column `512·c + y 1`: chunk `c` of its columns. One lemma per array the body loads by chunks. -/

/-- The data tile's chunk `c`. -/
theorem ld_x0_chunk (x : Vec F S512x4096 .f32) (c : Fin 8) {off : Fin 2 → Nat} (h : off = ![0, 512 * c.val])
    (inb : ∀ a, off a + (![512, 512] : Fin 2 → Nat) a ≤ S512x4096.size a) :
    View.ld x (Rect.unit (s := S512x4096) off ![512, 512] inb) = Body.colSlice x c := by
  subst h
  funext y
  show x _ = x _
  congr 1
  funext a
  apply Fin.ext
  match a with
  | ⟨0, _⟩ => show 0 + 1 * (y 0).val = (y 0).val; omega
  | ⟨1, _⟩ => show 512 * c.val + 1 * (y 1).val = 512 * c.val + (y 1).val; omega

/-- The decoder mean weight's chunk `c`. -/
theorem ld_x4_chunk (x : Vec F S64x4096 .f32) (c : Fin 8) {off : Fin 2 → Nat} (h : off = ![0, 512 * c.val])
    (inb : ∀ a, off a + (![64, 512] : Fin 2 → Nat) a ≤ S64x4096.size a) :
    View.ld x (Rect.unit (s := S64x4096) off ![64, 512] inb) = Body.colSlice x c := by
  subst h
  funext y
  show x _ = x _
  congr 1
  funext a
  apply Fin.ext
  match a with
  | ⟨0, _⟩ => show 0 + 1 * (y 0).val = (y 0).val; omega
  | ⟨1, _⟩ => show 512 * c.val + 1 * (y 1).val = 512 * c.val + (y 1).val; omega

/-- The decoder mean bias's chunk `c`. -/
theorem ld_x5_chunk (x : Vec F S1x4096 .f32) (c : Fin 8) {off : Fin 2 → Nat} (h : off = ![0, 512 * c.val])
    (inb : ∀ a, off a + (![1, 512] : Fin 2 → Nat) a ≤ S1x4096.size a) :
    View.ld x (Rect.unit (s := S1x4096) off ![1, 512] inb) = Body.colSlice x c := by
  subst h
  funext y
  show x _ = x _
  congr 1
  funext a
  apply Fin.ext
  match a with
  | ⟨0, _⟩ => show 0 + 1 * (y 0).val = (y 0).val; omega
  | ⟨1, _⟩ => show 512 * c.val + 1 * (y 1).val = 512 * c.val + (y 1).val; omega

/-! ### The three cases

Each case's run found the accumulator's pieces; the last store covers it whole, so what it leaves is that store's
payload, whose loads read the whole staging buffers or their chunks. -/

set_option backward.isDefEq.respectTransparency.types false in
/-- Points 1 … 30: the accumulator is loaded, the tile's sum of per-sample terms is added, and the result is the one
    covering store into the accumulator. -/
theorem sout0_B_0_eq (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S64x4096 .f32) (harg5 : arg5.IsWhole) (arg6 : Memref sig .tc .vmem S1x4096 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i)
    (x0 : Vec F S512x4096 .f32) (x1 : Vec F S512x64 .f32) (x2 : Vec F S4096x128 .f32) (x3 : Vec F S1x128 .f32) (x4 : Vec F S64x4096 .f32) (x5 : Vec F S1x4096 .f32) (x6 : Vec F S64x1 .f32) (x7 : Vec F S1x1 .f32) (xs0 : Vec F S1x1 .f32) :
    sout0_B_0 c i arg1 harg1 arg2 harg2 arg3 harg3 arg4 harg4 arg5 harg5 arg6 harg6 arg7 harg7 arg8 harg8 arg9 harg9 arg10 harg10 hc0 hc1 x0 x1 x2 x3 x4 x5 x6 x7 xs0 = Body.bodyOut x0 x1 x2 x3 x6 x7 (Body.colSlice x0) (Body.colSlice x4) (Body.colSlice x5) xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 x5 x6 x7 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread,
    View.ld_unit_zero (S := S512x4096) hz, View.ld_unit_zero (S := S512x64) hz, View.ld_unit_zero (S := S4096x128) hz, View.ld_unit_zero (S := S1x128) hz, View.ld_unit_zero (S := S64x1) hz, View.ld_unit_zero (S := S1x1) hz]
  simp only [ld_x0_chunk x0 0 (off := ![0, 0]) rfl,
    ld_x4_chunk x4 0 (off := ![0, 0]) rfl,
    ld_x5_chunk x5 0 (off := ![0, 0]) rfl,
    ld_x0_chunk x0 1 (off := ![0, 512]) rfl,
    ld_x4_chunk x4 1 (off := ![0, 512]) rfl,
    ld_x5_chunk x5 1 (off := ![0, 512]) rfl,
    ld_x0_chunk x0 2 (off := ![0, 1024]) rfl,
    ld_x4_chunk x4 2 (off := ![0, 1024]) rfl,
    ld_x5_chunk x5 2 (off := ![0, 1024]) rfl,
    ld_x0_chunk x0 3 (off := ![0, 1536]) rfl,
    ld_x4_chunk x4 3 (off := ![0, 1536]) rfl,
    ld_x5_chunk x5 3 (off := ![0, 1536]) rfl,
    ld_x0_chunk x0 4 (off := ![0, 2048]) rfl,
    ld_x4_chunk x4 4 (off := ![0, 2048]) rfl,
    ld_x5_chunk x5 4 (off := ![0, 2048]) rfl,
    ld_x0_chunk x0 5 (off := ![0, 2560]) rfl,
    ld_x4_chunk x4 5 (off := ![0, 2560]) rfl,
    ld_x5_chunk x5 5 (off := ![0, 2560]) rfl,
    ld_x0_chunk x0 6 (off := ![0, 3072]) rfl,
    ld_x4_chunk x4 6 (off := ![0, 3072]) rfl,
    ld_x5_chunk x5 6 (off := ![0, 3072]) rfl,
    ld_x0_chunk x0 7 (off := ![0, 3584]) rfl,
    ld_x4_chunk x4 7 (off := ![0, 3584]) rfl,
    ld_x5_chunk x5 7 (off := ![0, 3584]) rfl]
  rfl

set_option backward.isDefEq.respectTransparency.types false in
/-- Point 31, the accumulator: as at the points before it, the one covering store of the sum. -/
theorem sout0_C_0_eq (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S64x4096 .f32) (harg5 : arg5.IsWhole) (arg6 : Memref sig .tc .vmem S1x4096 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i)
    (x0 : Vec F S512x4096 .f32) (x1 : Vec F S512x64 .f32) (x2 : Vec F S4096x128 .f32) (x3 : Vec F S1x128 .f32) (x4 : Vec F S64x4096 .f32) (x5 : Vec F S1x4096 .f32) (x6 : Vec F S64x1 .f32) (x7 : Vec F S1x1 .f32) (xs0 : Vec F S1x1 .f32) :
    sout0_C_0 c i arg1 harg1 arg2 harg2 arg3 harg3 arg4 harg4 arg5 harg5 arg6 harg6 arg7 harg7 arg8 harg8 arg9 harg9 arg10 harg10 hc0 hc1 x0 x1 x2 x3 x4 x5 x6 x7 xs0 = Body.bodyOut x0 x1 x2 x3 x6 x7 (Body.colSlice x0) (Body.colSlice x4) (Body.colSlice x5) xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 x5 x6 x7 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread,
    View.ld_unit_zero (S := S512x4096) hz, View.ld_unit_zero (S := S512x64) hz, View.ld_unit_zero (S := S4096x128) hz, View.ld_unit_zero (S := S1x128) hz, View.ld_unit_zero (S := S64x1) hz, View.ld_unit_zero (S := S1x1) hz]
  simp only [ld_x0_chunk x0 0 (off := ![0, 0]) rfl,
    ld_x4_chunk x4 0 (off := ![0, 0]) rfl,
    ld_x5_chunk x5 0 (off := ![0, 0]) rfl,
    ld_x0_chunk x0 1 (off := ![0, 512]) rfl,
    ld_x4_chunk x4 1 (off := ![0, 512]) rfl,
    ld_x5_chunk x5 1 (off := ![0, 512]) rfl,
    ld_x0_chunk x0 2 (off := ![0, 1024]) rfl,
    ld_x4_chunk x4 2 (off := ![0, 1024]) rfl,
    ld_x5_chunk x5 2 (off := ![0, 1024]) rfl,
    ld_x0_chunk x0 3 (off := ![0, 1536]) rfl,
    ld_x4_chunk x4 3 (off := ![0, 1536]) rfl,
    ld_x5_chunk x5 3 (off := ![0, 1536]) rfl,
    ld_x0_chunk x0 4 (off := ![0, 2048]) rfl,
    ld_x4_chunk x4 4 (off := ![0, 2048]) rfl,
    ld_x5_chunk x5 4 (off := ![0, 2048]) rfl,
    ld_x0_chunk x0 5 (off := ![0, 2560]) rfl,
    ld_x4_chunk x4 5 (off := ![0, 2560]) rfl,
    ld_x5_chunk x5 5 (off := ![0, 2560]) rfl,
    ld_x0_chunk x0 6 (off := ![0, 3072]) rfl,
    ld_x4_chunk x4 6 (off := ![0, 3072]) rfl,
    ld_x5_chunk x5 6 (off := ![0, 3072]) rfl,
    ld_x0_chunk x0 7 (off := ![0, 3584]) rfl,
    ld_x4_chunk x4 7 (off := ![0, 3584]) rfl,
    ld_x5_chunk x5 7 (off := ![0, 3584]) rfl]
  rfl

set_option backward.isDefEq.respectTransparency.types false in
/-- Point 31, the output's staging buffer: the accumulator is loaded back after its store and copied out whole. -/
theorem out0_C_8_eq (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S64x4096 .f32) (harg5 : arg5.IsWhole) (arg6 : Memref sig .tc .vmem S1x4096 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i)
    (x0 : Vec F S512x4096 .f32) (x1 : Vec F S512x64 .f32) (x2 : Vec F S4096x128 .f32) (x3 : Vec F S1x128 .f32) (x4 : Vec F S64x4096 .f32) (x5 : Vec F S1x4096 .f32) (x6 : Vec F S64x1 .f32) (x7 : Vec F S1x1 .f32) (xs0 : Vec F S1x1 .f32) :
    out0_C_8 c i arg1 harg1 arg2 harg2 arg3 harg3 arg4 harg4 arg5 harg5 arg6 harg6 arg7 harg7 arg8 harg8 arg9 harg9 arg10 harg10 hc0 hc1 x0 x1 x2 x3 x4 x5 x6 x7 xs0 = Body.bodyOut x0 x1 x2 x3 x6 x7 (Body.colSlice x0) (Body.colSlice x4) (Body.colSlice x5) xs0 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 hc0 hc1 x0 x1 x2 x3 x4 x5 x6 x7 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread,
    View.ld_unit_zero (S := S512x4096) hz, View.ld_unit_zero (S := S512x64) hz, View.ld_unit_zero (S := S4096x128) hz, View.ld_unit_zero (S := S1x128) hz, View.ld_unit_zero (S := S64x1) hz, View.ld_unit_zero (S := S1x1) hz, View.readCov_unit_zero (S := S1x1) _ hz]
  simp only [ld_x0_chunk x0 0 (off := ![0, 0]) rfl,
    ld_x4_chunk x4 0 (off := ![0, 0]) rfl,
    ld_x5_chunk x5 0 (off := ![0, 0]) rfl,
    ld_x0_chunk x0 1 (off := ![0, 512]) rfl,
    ld_x4_chunk x4 1 (off := ![0, 512]) rfl,
    ld_x5_chunk x5 1 (off := ![0, 512]) rfl,
    ld_x0_chunk x0 2 (off := ![0, 1024]) rfl,
    ld_x4_chunk x4 2 (off := ![0, 1024]) rfl,
    ld_x5_chunk x5 2 (off := ![0, 1024]) rfl,
    ld_x0_chunk x0 3 (off := ![0, 1536]) rfl,
    ld_x4_chunk x4 3 (off := ![0, 1536]) rfl,
    ld_x5_chunk x5 3 (off := ![0, 1536]) rfl,
    ld_x0_chunk x0 4 (off := ![0, 2048]) rfl,
    ld_x4_chunk x4 4 (off := ![0, 2048]) rfl,
    ld_x5_chunk x5 4 (off := ![0, 2048]) rfl,
    ld_x0_chunk x0 5 (off := ![0, 2560]) rfl,
    ld_x4_chunk x4 5 (off := ![0, 2560]) rfl,
    ld_x5_chunk x5 5 (off := ![0, 2560]) rfl,
    ld_x0_chunk x0 6 (off := ![0, 3072]) rfl,
    ld_x4_chunk x4 6 (off := ![0, 3072]) rfl,
    ld_x5_chunk x5 6 (off := ![0, 3072]) rfl,
    ld_x0_chunk x0 7 (off := ![0, 3584]) rfl,
    ld_x4_chunk x4 7 (off := ![0, 3584]) rfl,
    ld_x5_chunk x5 7 (off := ![0, 3584]) rfl]
  rfl

set_option backward.isDefEq.respectTransparency.types false in
/-- Point 0: the accumulator is first reset to the zero vector, which the sum is then added to; the later store covers
    the reset, and the accumulator loaded between them is the zero vector just stored. -/
theorem sout0_A_0_eq (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S64x4096 .f32) (harg5 : arg5.IsWhole) (arg6 : Memref sig .tc .vmem S1x4096 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i)
    (x0 : Vec F S512x4096 .f32) (x1 : Vec F S512x64 .f32) (x2 : Vec F S4096x128 .f32) (x3 : Vec F S1x128 .f32) (x4 : Vec F S64x4096 .f32) (x5 : Vec F S1x4096 .f32) (x6 : Vec F S64x1 .f32) (x7 : Vec F S1x1 .f32) :
    sout0_A_0 c i arg1 harg1 arg2 harg2 arg3 harg3 arg4 harg4 arg5 harg5 arg6 harg6 arg7 harg7 arg8 harg8 arg9 harg9 arg10 harg10 hc0 hc1 x0 x1 x2 x3 x4 x5 x6 x7 = Body.bodyOut x0 x1 x2 x3 x6 x7 (Body.colSlice x0) (Body.colSlice x4) (Body.colSlice x5) (k0_pay2 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4 x5 x6 x7)]
  unfold kernelRun0_A
  dsimp only
  sl_unfold_words
  rw [View.canon_cons_unit_zero (S := S1x1) hz]
  simp only [View.readAt_eq_ld, harg1.read_unread, harg2.read_unread, harg3.read_unread, harg4.read_unread, harg5.read_unread, harg6.read_unread, harg7.read_unread, harg8.read_unread, harg9.read_unread, harg10.read_unread,
    View.ld_unit_zero (S := S512x4096) hz, View.ld_unit_zero (S := S512x64) hz, View.ld_unit_zero (S := S4096x128) hz, View.ld_unit_zero (S := S1x128) hz, View.ld_unit_zero (S := S64x1) hz, View.ld_unit_zero (S := S1x1) hz, View.readCov_unit_zero (S := S1x1) _ hz]
  simp only [ld_x0_chunk x0 0 (off := ![0, 0]) rfl,
    ld_x4_chunk x4 0 (off := ![0, 0]) rfl,
    ld_x5_chunk x5 0 (off := ![0, 0]) rfl,
    ld_x0_chunk x0 1 (off := ![0, 512]) rfl,
    ld_x4_chunk x4 1 (off := ![0, 512]) rfl,
    ld_x5_chunk x5 1 (off := ![0, 512]) rfl,
    ld_x0_chunk x0 2 (off := ![0, 1024]) rfl,
    ld_x4_chunk x4 2 (off := ![0, 1024]) rfl,
    ld_x5_chunk x5 2 (off := ![0, 1024]) rfl,
    ld_x0_chunk x0 3 (off := ![0, 1536]) rfl,
    ld_x4_chunk x4 3 (off := ![0, 1536]) rfl,
    ld_x5_chunk x5 3 (off := ![0, 1536]) rfl,
    ld_x0_chunk x0 4 (off := ![0, 2048]) rfl,
    ld_x4_chunk x4 4 (off := ![0, 2048]) rfl,
    ld_x5_chunk x5 4 (off := ![0, 2048]) rfl,
    ld_x0_chunk x0 5 (off := ![0, 2560]) rfl,
    ld_x4_chunk x4 5 (off := ![0, 2560]) rfl,
    ld_x5_chunk x5 5 (off := ![0, 2560]) rfl,
    ld_x0_chunk x0 6 (off := ![0, 3072]) rfl,
    ld_x4_chunk x4 6 (off := ![0, 3072]) rfl,
    ld_x5_chunk x5 6 (off := ![0, 3072]) rfl,
    ld_x0_chunk x0 7 (off := ![0, 3584]) rfl,
    ld_x4_chunk x4 7 (off := ![0, 3584]) rfl,
    ld_x5_chunk x5 7 (off := ![0, 3584]) rfl]
  rfl

end Cert.KernelIdeal.Pieces

end
-- ==== Proof.ReadOut.lean ====
/-
  The kernel's read-out: from the run of the idealized kernel to the contents of its result buffer.

  The kernel's one output array has a single 1×1 block whose index never moves; the body leaves it untouched at the grid's
  first 31 points and stores into it at the last, and only the last point writes it back. So if what the body leaves in
  the output's staging buffer at the last point is one number `X c` everywhere, then: the one write-back writes that
  (a constant read through any window is the constant); the last point's block is the whole 1×1 array, so the array ends
  holding `X c`; and the one host operation after the grid, the reshape of the 1×1 array to the 1-element result, keeps
  the constant. The ten arguments end as launched.
-/
import proofs.«126403_j42202348650518_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.KValue

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (ρ : Dev nD → PrngReg)

/-- The output array holding one number everywhere. -/
def result (X : Dev nD → EReal) (c : Dev nD) : Buf (Elt Ideal) ((c : Thread nD τ).loc main_v18) := fun _ => X c

theorem flushed_eq (X : Dev nD → EReal)
    (hX : ∀ (c : Dev nD) (t : Fin cfg0.N), t.val % 32 = 31 → ((outsAt0 m c t.val t.isLt).1 : S1x1.Idx → EReal) = fun _ => X c)
    (c : Dev nD) (t : Fin cfg0.N) (hf : (cfg0.win 8).flush t = true) :
    (dats m 0 c).flushed 8 t = ((cfg0.win 8).blk t).view.read (Elt Ideal) (result X c) := by
  have h31 : t.val % 32 = 31 := (flush0_8 t).mp hf
  funext j
  show (dats m 0 c).after 8 t ((cfg0.win 8).xinj (grid0.coords t) j) = X c
  rw [after0_8]
  exact congrFun (hX c t h31) _

/-- The grid's last point. -/
def tLast : Fin cfg0.N := ⟨31, by rw [show cfg0.N = 32 from N_0]; decide⟩

theorem final (X : Dev nD → EReal)
    (hX : ∀ (c : Dev nD) (t : Fin cfg0.N), t.val % 32 = 31 → ((outsAt0 m c t.val t.isLt).1 : S1x1.Idx → EReal) = fun _ => X c)
    (c : Dev nD) : (dats m 0 c).arrAt 8 cfg0.N = result X c :=
  (dats m 0 c).arrAt_eq_of_cover 8 (result X c) (flushed_eq m X hX c) fun i =>
    ⟨tLast, (flush0_8 tLast).mpr rfl, by
      show i ∈ ((View.whole main_v18).slice (win0_8.rect tLast)).set
      rw [View.set_slice_whole, Rect.mem_set_unit]
      intro a
      match a with
      | ⟨0, _⟩ =>
        have hi : (i 0 : Nat) < 1 := (i 0).isLt
        show win0_8.index tLast 0 * win0_8.size 0 ≤ (i 0 : Nat) ∧ (i 0 : Nat) < win0_8.index tLast 0 * win0_8.size 0 + win0_8.xsize (grid0.coords tLast) 0
        rw [show win0_8.index tLast 0 * win0_8.size 0 = 0 from by decide +kernel, show win0_8.xsize (grid0.coords tLast) 0 = 1 from by decide +kernel]
        omega
      | ⟨1, _⟩ =>
        have hi : (i 1 : Nat) < 1 := (i 1).isLt
        show win0_8.index tLast 1 * win0_8.size 1 ≤ (i 1 : Nat) ∧ (i 1 : Nat) < win0_8.index tLast 1 * win0_8.size 1 + win0_8.xsize (grid0.coords tLast) 1
        rw [show win0_8.index tLast 1 * win0_8.size 1 = 0 from by decide +kernel, show win0_8.xsize (grid0.coords tLast) 1 = 1 from by decide +kernel]
        omega⟩

theorem tail_eq (X : Dev nD → EReal)
    (hX : ∀ (c : Dev nD) (t : Fin cfg0.N), t.val % 32 = 31 → ((outsAt0 m c t.val t.isLt).1 : S1x1.Idx → EReal) = fun _ => X c)
    (c : Dev nD) :
    Pipeline.afterTail₀ cfgs (dats m) 0 (V0 m) [hostOps1] c main_v19 = fun _ => X c := by
  unfold Pipeline.afterTail₀
  show StableHlo.after hostOps1 _ (Proc.devRef .tc main_v19) = _
  after_results
  have e : Pipeline.withArrays (cfgs 0).spec c (V0 m c) (fun w => (dats m 0 c).arrAt w (cfgs 0).N) (Proc.devRef .tc main_v18)
      = result X c := (Pipeline.withArrays_arr spec0 launch0.win.arr_inj c _ _ 8).trans (final m X hX c)
  rw [e]
  funext i
  rfl

theorem run_of_last (X : Dev nD → EReal)
    (hX : ∀ (c : Dev nD) (t : Fin cfg0.N), t.val % 32 = 31 → ((outsAt0 m c t.val t.isLt).1 : S1x1.Idx → EReal) = fun _ => X c) :
    θ_run (defs (F := Ideal)) (onTc (τ := τ) (main (F := Ideal))) ⟨m, fun _ => 0, ρ⟩ (fun r => ∀ c : Dev nD,
      r.2.mem ((c.tc : Thread nD τ).loc main_v19) = (fun _ => X c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v19 (Pipeline.mem_restRefs_of main_v19 (by decide) (by decide))).trans (tail_eq m X hX c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 4).trans (((dats m 0 c).arrAt_in 4 rfl _).trans ((A_eq m c 4).trans (V_main_arg6 m c))),
      ((h c).2 main_arg7 (Pipeline.mem_restRefs_of main_arg7 (by decide) (by decide))).trans (W_main_arg7 m (dats m) c),
      ((h c).1 6).trans (((dats m 0 c).arrAt_in 6 rfl _).trans ((A_eq m c 6).trans (V_main_arg8 m c))),
      ((h c).2 main_arg9 (Pipeline.mem_restRefs_of main_arg9 (by decide) (by decide))).trans (W_main_arg9 m (dats m) c)⟩)
    (run_main m ρ)

end Cert.KernelIdeal.KValue
end
-- ==== Proof.LibScatterSet.lean ====
/-
  A SCATTER WHOSE BODY RETURNS THE UPDATE, READ AT ONE INDEX OF THE RESULT.

  `Host.scatter` is a left fold over the update indices in row-major order; each step overwrites the result index its
  update index lands at (`ScatterDims.resultIdx?`), or does nothing when the update falls outside the operand. With the
  body `fun _ b => b` the element a step writes is the update's own, so what the fold leaves at a result index `i` is
  decided by the update indices that land at `i`:

  * `Host.scatter_set_apply_of_unique`: if exactly one update index `j₀` lands at `i`, the result holds `upd j₀` there;
  * `Host.scatter_set_apply_of_forall_ne`: if none does, the result holds the operand's `x i`.

  `ScatterDims.resultIdx?_eq_some_iff` says when an update index lands at `i`: on every operand axis the window's start
  plus the window coordinate is `i`'s coordinate.

  Both come from two statements about any left fold whose step overwrites one index (`foldl_overwrite_of_forall_ne`,
  `foldl_overwrite_of_unique`), proved over an arbitrary list.
-/
import Idealize.ShloMosaic.PureOps.ShapeOps
import Mathlib.Data.List.Induction

namespace Idealize.ShloMosaic

/-! ## A left fold whose step overwrites one index -/

section Fold
variable {N I α : Type} (step : (I → α) → N → I → α) (g : N → Option I) (v : N → α)

/-- No element of the list writes index `i`: the fold leaves the initial value there. -/
theorem foldl_overwrite_of_forall_ne
    (hmiss : ∀ r n i, g n ≠ some i → step r n i = r i) (i : I) :
    ∀ (l : List N) (x : I → α), (∀ n ∈ l, g n ≠ some i) → l.foldl step x i = x i := by
  intro l
  induction l with
  | nil => intro x _; rfl
  | cons n l ih =>
    intro x h
    rw [List.foldl_cons, ih (step x n) (fun n' hn' => h n' (List.mem_cons_of_mem _ hn'))]
    exact hmiss x n i (h n List.mem_cons_self)

/-- Exactly one element `n₀` of the list writes index `i` (it may occur several times): the fold leaves that
    element's value there. -/
theorem foldl_overwrite_of_unique
    (hhit : ∀ r n i, g n = some i → step r n i = v n)
    (hmiss : ∀ r n i, g n ≠ some i → step r n i = r i) (i : I) (n₀ : N) (h₀ : g n₀ = some i) :
    ∀ (l : List N) (x : I → α), n₀ ∈ l → (∀ n ∈ l, g n = some i → n = n₀) → l.foldl step x i = v n₀ := by
  intro l
  induction l using List.reverseRecOn with
  | nil => intro x hmem _; exact absurd hmem List.not_mem_nil
  | append_singleton l n ih =>
    intro x hmem huniq
    rw [List.foldl_append, List.foldl_cons, List.foldl_nil]
    by_cases hn : g n = some i
    · rw [hhit _ n i hn, huniq n (List.mem_append_right _ List.mem_cons_self) hn]
    · rw [hmiss _ n i hn]
      have hne : n₀ ≠ n := fun e => hn (e ▸ h₀)
      have hmem' : n₀ ∈ l := by
        rcases List.mem_append.1 hmem with h | h
        · exact h
        · exact absurd (List.mem_singleton.1 h) hne
      exact ih x hmem' (fun n' hn' => huniq n' (List.mem_append_left _ hn'))

end Fold

/-! ## The scatter -/

section Scatter
variable {s si u : Shape} {α : Type} {w : Nat}

/-- The fold's step at the row-major position `n` of an update index, for the body that returns the update. -/
private abbrev setStep (d : ScatterDims s si u) (idx : IVec si w) (upd : u.Idx → α) (r : s.Idx → α) (n : Fin u.numel) :
    s.Idx → α :=
  match d.resultIdx? (u.rowMajor.symm n) idx with
  | some i => fun i' => if i' = i then (fun _ b => b) (r i) (upd (u.rowMajor.symm n)) else r i'
  | none => r

private theorem setStep_hit (d : ScatterDims s si u) (idx : IVec si w) (upd : u.Idx → α) (r : s.Idx → α) (n : Fin u.numel)
    (i : s.Idx) (h : d.resultIdx? (u.rowMajor.symm n) idx = some i) :
    setStep d idx upd r n i = upd (u.rowMajor.symm n) := by
  unfold setStep
  rw [h]
  exact if_pos rfl

private theorem setStep_miss (d : ScatterDims s si u) (idx : IVec si w) (upd : u.Idx → α) (r : s.Idx → α) (n : Fin u.numel)
    (i : s.Idx) (h : d.resultIdx? (u.rowMajor.symm n) idx ≠ some i) :
    setStep d idx upd r n i = r i := by
  unfold setStep
  cases hg : d.resultIdx? (u.rowMajor.symm n) idx with
  | none => rfl
  | some k =>
    have hne : i ≠ k := fun e => h (by rw [hg, e])
    exact if_neg hne

/-- An update index lands at `i` exactly when, on every operand axis, the window's start plus the window coordinate is
    `i`'s coordinate. -/
theorem ScatterDims.resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h
    split at h
    · next hb =>
      have hi := Option.some.inj h
      intro a
      have hv : (d.start j idx a + (d.window j a : Int)).toNat = (i a).val := congrArg Fin.val (congrFun hi a)
      have := (hb a).1
      omega
    · exact absurd h (by simp)
  · intro h
    have hb : ∀ a, 0 ≤ d.start j idx a + (d.window j a : Int) ∧ d.start j idx a + (d.window j a : Int) < s.size a := by
      intro a
      rw [h a]
      exact ⟨Int.natCast_nonneg _, by exact_mod_cast (i a).isLt⟩
    rw [dif_pos hb]
    congr 1
    funext a
    apply Fin.ext
    show (d.start j idx a + (d.window j a : Int)).toNat = (i a).val
    rw [h a]
    exact Int.toNat_natCast _

/-- A scatter that SETS (its body returns the update), read at a result index `i` that exactly one update index `j₀`
    lands at: the update's element at `j₀`. -/
theorem Host.scatter_set_apply_of_unique (d : ScatterDims s si u) (x : s.Idx → α) (idx : IVec si w) (upd : u.Idx → α)
    (i : s.Idx) (j₀ : u.Idx) (h₀ : d.resultIdx? j₀ idx = some i)
    (huniq : ∀ j : u.Idx, d.resultIdx? j idx = some i → j = j₀) :
    Host.scatter d (fun _ b => b) x idx upd i = upd j₀ := by
  have key := foldl_overwrite_of_unique (setStep d idx upd) (fun n => d.resultIdx? (u.rowMajor.symm n) idx)
    (fun n => upd (u.rowMajor.symm n)) (setStep_hit d idx upd) (setStep_miss d idx upd) i (u.rowMajor j₀)
    (by rw [Equiv.symm_apply_apply]; exact h₀) (List.finRange u.numel) x (List.mem_finRange _)
    (fun n _ hn => by
      have := huniq _ hn
      rw [← this, Equiv.apply_symm_apply])
  rw [Equiv.symm_apply_apply] at key
  exact key

/-- A scatter that SETS, read at a result index no update index lands at: the operand's element. -/
theorem Host.scatter_set_apply_of_forall_ne (d : ScatterDims s si u) (x : s.Idx → α) (idx : IVec si w) (upd : u.Idx → α)
    (i : s.Idx) (hnone : ∀ j : u.Idx, d.resultIdx? j idx ≠ some i) :
    Host.scatter d (fun _ b => b) x idx upd i = x i :=
  foldl_overwrite_of_forall_ne (setStep d idx upd) (fun n => d.resultIdx? (u.rowMajor.symm n) idx)
    (setStep_miss d idx upd) i (List.finRange u.numel) x (fun n _ => hnone _)

end Scatter

end Idealize.ShloMosaic
-- ==== Proof.PackedWeights.lean ====
/-
  What the host operations before the kernel's one launch leave in the four buffers its windows read, at the extended
  reals, index by index: the packed encoder weight (the mean's weight in columns 0 … 63, the scale's weight in column 64),
  the packed encoder bias (the mean's bias in entries 0 … 63, the scale's bias in entry 64), and the decoder's two biases
  with a unit axis added.

  The two packed arrays are each a zero array overwritten twice by a scatter at ONE start index. For each of the four
  scatters we say where an update index lands (`lands_…`: start plus window coordinate on each of the operand's two
  axes), over a generic start-index vector whose words are hypotheses; an index of the packed array is then written by
  exactly one update of one scatter and by none of the other, which reads the scatter there.
-/
import proofs.«126403_j42202348650518_1_alg».proof.Proof.Gen.KernelIdeal.Frame
import proofs.«126403_j42202348650518_1_alg».proof.Proof.LibScatterSet
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.Packed

open Cert.KernelIdeal Cert.KernelIdeal.Gen Idealize.ShloMosaic Idealize.ShloMosaic.ValueIdx Idealize.ShloMosaic.TcCoe

/-! ## The start of a window, when the start indices are one vector -/

section Start
variable {w : ℕ}

/-- Scatter indices with the index vector's axis only: component `c` of the start index is the vector's entry `c`. -/
theorem siIdx_rank1 {s u : Shape} {n : ℕ} (d : ScatterDims s ⟨1, ![n]⟩ u) (hd : d.indexVectorDim = 0) (j : u.Idx)
    (c : Fin d.scatterDimsToOperandDims.length) (hc : c.val < n) : d.siIdx j c = ix1 ⟨c.val, hc⟩ := by
  funext b
  apply Fin.ext
  have hb : b = 0 := Fin.ext (by have h : b.val < 1 := b.isLt; show b.val = 0; omega)
  subst hb
  unfold ScatterDims.siIdx
  rw [dif_pos (by rw [hd]; rfl)]
  rfl

/-- On an operand axis `a` the start indices name, in position `p` of the list of such axes, the window starts at the
    vector's entry `p`, read signed. -/
theorem start_rank1 {s u : Shape} {n : ℕ} (d : ScatterDims s ⟨1, ![n]⟩ u) (hd : d.indexVectorDim = 0) (j : u.Idx)
    (idx : IVec ⟨1, ![n]⟩ w) (a : Fin s.rank) (ha : a ∈ d.scatterDimsToOperandDims) (p : Fin n)
    (hp : d.scatterDimsToOperandDims.idxOf a = p.val) : d.start j idx a = (idx (ix1 p)).toInt := by
  unfold ScatterDims.start
  rw [dif_pos ha, siIdx_rank1 d hd j _ (by show d.scatterDimsToOperandDims.idxOf a < n; rw [hp]; exact p.isLt)]
  exact congrArg (fun q => (idx (ix1 q)).toInt) (Fin.ext hp)

end Start

/-! ## Where an update lands, scatter by scatter -/

/-- The mean's weight into the packed weight: update `(k, j)` lands at `(k, 0 + j)`. -/
theorem lands_Wmu (idx : IVec S1 32) (h0 : idx (ix1 0) = 0#32) (j : S4096x64.Idx) (i : S4096x128.Idx) :
    scatter_S4096x128_S1_S4096x64_01_n_1_0.resultIdx? j idx = some i ↔ (j 0).val = (i 0).val ∧ (j 1).val = (i 1).val := by
  rw [ScatterDims.resultIdx?_eq_some_iff]
  have s1 : scatter_S4096x128_S1_S4096x64_01_n_1_0.start j idx 1 = 0 := by
    rw [start_rank1 _ rfl j idx 1 (by decide) 0 (by decide), h0]; rfl
  constructor
  · intro h
    have h0' : (0 : Int) + ((j 0).val : Int) = ((i 0).val : Int) := h 0
    have h1' := h 1
    rw [s1] at h1'
    have h1'' : (0 : Int) + ((j 1).val : Int) = ((i 1).val : Int) := h1'
    omega
  · rintro ⟨e0, e1⟩
    refine Fin.forall_fin_two.2 ⟨?_, ?_⟩
    · show (0 : Int) + ((j 0).val : Int) = ((i 0).val : Int); omega
    · rw [s1]; show (0 : Int) + ((j 1).val : Int) = ((i 1).val : Int); omega

/-- The scale's weight into the packed weight: update `k` lands at `(k, 64)`. -/
theorem lands_Wsig (idx : IVec S1 32) (h0 : idx (ix1 0) = 64#32) (j : S4096.Idx) (i : S4096x128.Idx) :
    scatter_S4096x128_S1_S4096_0_1_1_0.resultIdx? j idx = some i ↔ (j 0).val = (i 0).val ∧ 64 = (i 1).val := by
  rw [ScatterDims.resultIdx?_eq_some_iff]
  have s1 : scatter_S4096x128_S1_S4096_0_1_1_0.start j idx 1 = 64 := by
    rw [start_rank1 _ rfl j idx 1 (by decide) 0 (by decide), h0]; rfl
  constructor
  · intro h
    have h0' : (0 : Int) + ((j 0).val : Int) = ((i 0).val : Int) := h 0
    have h1' := h 1
    rw [s1] at h1'
    have h1'' : (64 : Int) + ((0 : ℕ) : Int) = ((i 1).val : Int) := h1'
    omega
  · rintro ⟨e0, e1⟩
    refine Fin.forall_fin_two.2 ⟨?_, ?_⟩
    · show (0 : Int) + ((j 0).val : Int) = ((i 0).val : Int); omega
    · rw [s1]; show (64 : Int) + ((0 : ℕ) : Int) = ((i 1).val : Int); omega

/-- The mean's bias into the packed bias: update `j` lands at `(0, 0 + j)`. -/
theorem lands_Bmu (idx : IVec S2 32) (h0 : idx (ix1 0) = 0#32) (h1 : idx (ix1 1) = 0#32) (j : S64.Idx) (i : S1x128.Idx) :
    scatter_S1x128_S2_S64_0_0_01_0.resultIdx? j idx = some i ↔ 0 = (i 0).val ∧ (j 0).val = (i 1).val := by
  rw [ScatterDims.resultIdx?_eq_some_iff]
  have s0 : scatter_S1x128_S2_S64_0_0_01_0.start j idx 0 = 0 := by
    rw [start_rank1 _ rfl j idx 0 (by decide) 0 (by decide), h0]; rfl
  have s1 : scatter_S1x128_S2_S64_0_0_01_0.start j idx 1 = 0 := by
    rw [start_rank1 _ rfl j idx 1 (by decide) 1 (by decide), h1]; rfl
  constructor
  · intro h
    have h0' := h 0
    rw [s0] at h0'
    have h0'' : (0 : Int) + ((0 : ℕ) : Int) = ((i 0).val : Int) := h0'
    have h1' := h 1
    rw [s1] at h1'
    have h1'' : (0 : Int) + ((j 0).val : Int) = ((i 1).val : Int) := h1'
    omega
  · rintro ⟨e0, e1⟩
    refine Fin.forall_fin_two.2 ⟨?_, ?_⟩
    · rw [s0]; show (0 : Int) + ((0 : ℕ) : Int) = ((i 0).val : Int); omega
    · rw [s1]; show (0 : Int) + ((j 0).val : Int) = ((i 1).val : Int); omega

/-- The scale's bias into the packed bias: the one update lands at `(0, 64)`. -/
theorem lands_Bsig (idx : IVec S2 32) (h0 : idx (ix1 0) = 0#32) (h1 : idx (ix1 1) = 64#32) (j : S_.Idx) (i : S1x128.Idx) :
    scatter_S1x128_S2_S__n_01_01_0.resultIdx? j idx = some i ↔ 0 = (i 0).val ∧ 64 = (i 1).val := by
  rw [ScatterDims.resultIdx?_eq_some_iff]
  have s0 : scatter_S1x128_S2_S__n_01_01_0.start j idx 0 = 0 := by
    rw [start_rank1 _ rfl j idx 0 (by decide) 0 (by decide), h0]; rfl
  have s1 : scatter_S1x128_S2_S__n_01_01_0.start j idx 1 = 64 := by
    rw [start_rank1 _ rfl j idx 1 (by decide) 1 (by decide), h1]; rfl
  constructor
  · intro h
    have h0' := h 0
    rw [s0] at h0'
    have h0'' : (0 : Int) + ((0 : ℕ) : Int) = ((i 0).val : Int) := h0'
    have h1' := h 1
    rw [s1] at h1'
    have h1'' : (64 : Int) + ((0 : ℕ) : Int) = ((i 1).val : Int) := h1'
    omega
  · rintro ⟨e0, e1⟩
    refine Fin.forall_fin_two.2 ⟨?_, ?_⟩
    · rw [s0]; show (0 : Int) + ((0 : ℕ) : Int) = ((i 0).val : Int); omega
    · rw [s1]; show (64 : Int) + ((0 : ℕ) : Int) = ((i 1).val : Int); omega

/-! ## The two packed arrays read at an index, over generic operands -/

section Generic
variable {α : Type}

/-- Columns `0 … 63` of the packed weight hold the mean's weight: the second scatter writes column 64 only. -/
theorem packedW_mu_apply (x : S4096x128.Idx → α) (i1 i4 : IVec S1 32) (u2 : S4096x64.Idx → α) (u4 : S4096.Idx → α)
    (h1 : i1 (ix1 0) = 0#32) (h4 : i4 (ix1 0) = 64#32) (k : Fin 4096) (j : Fin 64) :
    Host.scatter scatter_S4096x128_S1_S4096_0_1_1_0 (fun _ b => b)
      (Host.scatter scatter_S4096x128_S1_S4096x64_01_n_1_0 (fun _ b => b) x i1 u2) i4 u4
      (ix2 k (Fin.castLE (by decide) j)) = u2 (ix2 k j) := by
  have hout : ∀ j' : S4096.Idx, scatter_S4096x128_S1_S4096_0_1_1_0.resultIdx? j' i4
      ≠ some (ix2 k (Fin.castLE (by decide) j)) := fun j' h => by
    have h' := ((lands_Wsig i4 h4 j' _).1 h).2
    have e : ((ix2 k (Fin.castLE (by decide : 64 ≤ 128) j) : S4096x128.Idx) 1).val = j.val := rfl
    have := j.isLt
    omega
  rw [Host.scatter_set_apply_of_forall_ne _ _ _ _ _ hout]
  refine Host.scatter_set_apply_of_unique _ _ _ _ _ (ix2 k j) ((lands_Wmu i1 h1 _ _).2 ⟨rfl, rfl⟩) (fun j' h => ?_)
  have h' := (lands_Wmu i1 h1 j' _).1 h
  rw [eq_ix2 j']
  have e0 : j' 0 = k := Fin.ext h'.1
  have e1 : j' 1 = j := Fin.ext h'.2
  rw [e0, e1]
  rfl

/-- Column `64` of the packed weight holds the scale's weight. -/
theorem packedW_sig_apply (x : S4096x128.Idx → α) (i4 : IVec S1 32) (u4 : S4096.Idx → α)
    (h4 : i4 (ix1 0) = 64#32) (k : Fin 4096) :
    Host.scatter scatter_S4096x128_S1_S4096_0_1_1_0 (fun _ b => b) x i4 u4 (ix2 k (64 : Fin 128)) = u4 (ix1 k) := by
  refine Host.scatter_set_apply_of_unique _ _ _ _ _ (ix1 k) ((lands_Wsig i4 h4 _ _).2 ⟨rfl, rfl⟩) (fun j' h => ?_)
  have h' := (lands_Wsig i4 h4 j' _).1 h
  rw [eq_ix1 j']
  have e0 : j' 0 = k := Fin.ext h'.1
  rw [e0]
  rfl

/-- Entries `0 … 63` of the packed bias hold the mean's bias: the second scatter writes entry 64 only. -/
theorem packedB_mu_apply (x : S1x128.Idx → α) (i9 i14 : IVec S2 32) (u3 : S64.Idx → α) (u5 : S_.Idx → α)
    (h90 : i9 (ix1 0) = 0#32) (h91 : i9 (ix1 1) = 0#32) (h140 : i14 (ix1 0) = 0#32) (h141 : i14 (ix1 1) = 64#32)
    (j : Fin 64) :
    Host.scatter scatter_S1x128_S2_S__n_01_01_0 (fun _ b => b)
      (Host.scatter scatter_S1x128_S2_S64_0_0_01_0 (fun _ b => b) x i9 u3) i14 u5
      (ix2 0 (Fin.castLE (by decide) j)) = u3 (ix1 j) := by
  have hout : ∀ j' : S_.Idx, scatter_S1x128_S2_S__n_01_01_0.resultIdx? j' i14
      ≠ some (ix2 0 (Fin.castLE (by decide) j)) := fun j' h => by
    have h' := ((lands_Bsig i14 h140 h141 j' _).1 h).2
    have e : ((ix2 (0 : Fin 1) (Fin.castLE (by decide : 64 ≤ 128) j) : S1x128.Idx) 1).val = j.val := rfl
    have := j.isLt
    omega
  rw [Host.scatter_set_apply_of_forall_ne _ _ _ _ _ hout]
  refine Host.scatter_set_apply_of_unique _ _ _ _ _ (ix1 j) ((lands_Bmu i9 h90 h91 _ _).2 ⟨rfl, rfl⟩) (fun j' h => ?_)
  have h' := (lands_Bmu i9 h90 h91 j' _).1 h
  rw [eq_ix1 j']
  have e0 : j' 0 = j := Fin.ext h'.2
  rw [e0]
  rfl

/-- Entry `64` of the packed bias holds the scale's bias. -/
theorem packedB_sig_apply (x : S1x128.Idx → α) (i14 : IVec S2 32) (u5 : S_.Idx → α)
    (h140 : i14 (ix1 0) = 0#32) (h141 : i14 (ix1 1) = 64#32) :
    Host.scatter scatter_S1x128_S2_S__n_01_01_0 (fun _ b => b) x i14 u5 (ix2 0 (64 : Fin 128)) = u5 ix0 :=
  Host.scatter_set_apply_of_unique _ _ _ _ _ ix0 ((lands_Bsig i14 h140 h141 _ _).2 ⟨rfl, rfl⟩)
    (fun j' _ => eq_ix0 j')

end Generic

variable (m : (ℓ : Loc nD τ sig) → Buf (Elt Ideal) ℓ)

/-! ## The packed encoder weight -/

/-- The packed weight as the host operations leave it: zeros, then the mean's weight scattered at column 0, then the
    scale's weight (its unit axis dropped) scattered at column 64. -/
theorem V_packedW_eq (c : Dev nD) : (V (F := Ideal) m c main_v5 : S4096x128.Idx → EReal) =
    Host.scatter scatter_S4096x128_S1_S4096_0_1_1_0 (fun _ b => b)
      (Host.scatter scatter_S4096x128_S1_S4096x64_01_n_1_0 (fun _ b => b)
        (broadcastInDim S4096x128 ![] bcast_S_S4096x128 (constant (F := Ideal) S_ .f32 0x00000000#32))
        (broadcastInDim S1 ![] bcast_S_S1 (constantI S_ 32 0#32))
        (m ((c : Thread nD τ).loc main_arg2) : S4096x64.Idx → EReal))
      (broadcastInDim S1 ![] bcast_S_S1 (constantI S_ 32 64#32))
      (shapeCast S4096 (m ((c : Thread nD τ).loc main_arg4) : S4096x1.Idx → EReal) shapeCasts_S4096x1_S4096) := by
  show StableHlo.after hostOps0 (fun b => m (c, b)) (Proc.devRef .tc main_v5) = _
  after_results
  rfl

/-- Column `j < 64` of the packed weight is column `j` of the encoder mean's weight. -/
theorem V_packedW_mu (c : Dev nD) (k : Fin 4096) (j : Fin 64) :
    (V (F := Ideal) m c main_v5 : S4096x128.Idx → EReal) (ix2 k (Fin.castLE (by decide) j))
      = (m ((c : Thread nD τ).loc main_arg2) : S4096x64.Idx → EReal) (ix2 k j) := by
  rw [V_packedW_eq]
  exact packedW_mu_apply _ _ _ _ _ rfl rfl k j

/-- Column `64` of the packed weight is the encoder scale's weight. -/
theorem V_packedW_sig (c : Dev nD) (k : Fin 4096) :
    (V (F := Ideal) m c main_v5 : S4096x128.Idx → EReal) (ix2 k (64 : Fin 128))
      = (m ((c : Thread nD τ).loc main_arg4) : S4096x1.Idx → EReal) (ix2 k 0) := by
  rw [V_packedW_eq, packedW_sig_apply _ _ _ rfl k]
  exact shapeCast_apply _ _ _ _ (by
    show (S4096x1.rowMajor (ix2 k 0)).val = (S4096.rowMajor (ix1 k)).val
    rw [Shape.rowMajor_val_two, Shape.rowMajor_val_one]
    show k.val * 1 + 0 = k.val
    omega)

/-! ## The packed encoder bias -/

/-- The packed bias as the host operations leave it: zeros, then the mean's bias scattered at `(0, 0)`, then the scale's
    bias (as a scalar) scattered at `(0, 64)`. -/
theorem V_packedB_eq (c : Dev nD) : (V (F := Ideal) m c main_v15 : S1x128.Idx → EReal) =
    Host.scatter scatter_S1x128_S2_S__n_01_01_0 (fun _ b => b)
      (Host.scatter scatter_S1x128_S2_S64_0_0_01_0 (fun _ b => b)
        (broadcastInDim S1x128 ![] bcast_S_S1x128 (constant (F := Ideal) S_ .f32 0x00000000#32))
        (concatenate S2 0 [⟨S1, broadcastInDim S1 ![] bcast_S_S1 (constantI S_ 32 0#32)⟩,
          ⟨S1, broadcastInDim S1 ![] bcast_S_S1 (constantI S_ 32 0#32)⟩] concatenates_S1_S1_S2_d0)
        (m ((c : Thread nD τ).loc main_arg3) : S64.Idx → EReal))
      (concatenate S2 0 [⟨S1, broadcastInDim S1 ![] bcast_S_S1 (constantI S_ 32 0#32)⟩,
        ⟨S1, broadcastInDim S1 ![] bcast_S_S1 (constantI S_ 32 64#32)⟩] concatenates_S1_S1_S2_d0)
      (shapeCast S_ (m ((c : Thread nD τ).loc main_arg5) : S1.Idx → EReal) shapeCasts_S1_S_) := by
  show StableHlo.after hostOps0 (fun b => m (c, b)) (Proc.devRef .tc main_v15) = _
  after_results
  rfl

/-- Entry `j < 64` of the packed bias is entry `j` of the encoder mean's bias. -/
theorem V_packedB_mu (c : Dev nD) (j : Fin 64) :
    (V (F := Ideal) m c main_v15 : S1x128.Idx → EReal) (ix2 0 (Fin.castLE (by decide) j))
      = (m ((c : Thread nD τ).loc main_arg3) : S64.Idx → EReal) (ix1 j) := by
  rw [V_packedB_eq]
  exact packedB_mu_apply _ _ _ _ _ rfl rfl rfl rfl j

/-- Entry `64` of the packed bias is the encoder scale's bias. -/
theorem V_packedB_sig (c : Dev nD) :
    (V (F := Ideal) m c main_v15 : S1x128.Idx → EReal) (ix2 0 (64 : Fin 128))
      = (m ((c : Thread nD τ).loc main_arg5) : S1.Idx → EReal) (ix1 0) := by
  rw [V_packedB_eq, packedB_sig_apply _ _ _ rfl rfl]
  exact shapeCast_apply _ _ _ _ (by
    show (S1.rowMajor (ix1 0)).val = (S_.rowMajor ix0).val
    rw [Shape.rowMajor_val_one]
    have h : (S_.rowMajor ix0).val < 1 := (S_.rowMajor ix0).isLt
    show 0 = (S_.rowMajor ix0).val
    omega)

/-! ## The decoder's biases: a unit axis added -/

/-- The decoder mean's bias as the kernel's window reads it: entry `(0, q)` is entry `q` of the bias. -/
theorem V_decBias (c : Dev nD) (q : Fin 4096) :
    (V (F := Ideal) m c main_v16 : S1x4096.Idx → EReal) (ix2 0 q)
      = (m ((c : Thread nD τ).loc main_arg7) : S4096.Idx → EReal) (ix1 q) := by
  have e : (V (F := Ideal) m c main_v16 : S1x4096.Idx → EReal)
      = shapeCast S1x4096 (m ((c : Thread nD τ).loc main_arg7) : S4096.Idx → EReal) shapeCasts_S4096_S1x4096 := by
    show StableHlo.after hostOps0 (fun b => m (c, b)) (Proc.devRef .tc main_v16) = _
    after_results
    rfl
  rw [e]
  exact shapeCast_a_1a_apply _ _ 0 q

/-- The decoder scale's bias as the kernel's window reads it: the one entry. -/
theorem V_decScaleBias (c : Dev nD) :
    (V (F := Ideal) m c main_v17 : S1x1.Idx → EReal) (ix2 0 0)
      = (m ((c : Thread nD τ).loc main_arg9) : S1.Idx → EReal) (ix1 0) := by
  have e : (V (F := Ideal) m c main_v17 : S1x1.Idx → EReal)
      = shapeCast S1x1 (m ((c : Thread nD τ).loc main_arg9) : S1.Idx → EReal) shapeCasts_S1_S1x1 := by
    show StableHlo.after hostOps0 (fun b => m (c, b)) (Proc.devRef .tc main_v17) = _
    after_results
    rfl
  rw [e]
  exact shapeCast_a_1a_apply _ _ 0 0

end Cert.KernelIdeal.Packed

end
-- ==== Proof.Bridge.lean ====
/-
  From the kernel's blocks at a grid point to the program's argument arrays: a tile's sum of per-sample terms, read off
  the blocks, is the sum of the terms of the argument arrays' rows `512·t … 512·t + 511`; the accumulator after the last
  of the 32 points is the bound over all 16384 rows.
-/
import proofs.«126403_j42202348650518_1_alg».proof.Proof.TileSum
import proofs.«126403_j42202348650518_1_alg».proof.Proof.PackedWeights
import Idealize.ShloMosaic.Lib.ValueIdx
import Mathlib.Algebra.BigOperators.Fin

noncomputable section

namespace Cert.KernelIdeal.KValue

open Cert.KernelIdeal Cert.KernelIdeal.Gen Cert.KernelIdeal.Body Cert.KernelIdeal.Packed Idealize.ShloMosaic
  Idealize.ShloMosaic.ValueIdx Idealize.ShloMosaic.TcCoe Idealize.SL.Sem

variable (m : (ℓ : Loc nD τ sig) → Buf (Elt Ideal) ℓ)

/-- The per-sample term depends on its ten arguments only through their values. -/
private theorem rowTerm_congr {x x' : Fin 4096 → EReal} {e e' : Fin 64 → EReal} {Wmu Wmu' : Fin 4096 → Fin 64 → EReal}
    {bmu bmu' : Fin 64 → EReal} {Wsig Wsig' : Fin 4096 → EReal} {bsig bsig' : EReal} {Vmu Vmu' : Fin 64 → Fin 4096 → EReal}
    {cmu cmu' : Fin 4096 → EReal} {Vsig Vsig' : Fin 64 → EReal} {csig csig' : EReal}
    (h0 : x = x') (h1 : e = e') (h2 : Wmu = Wmu') (h3 : bmu = bmu') (h4 : Wsig = Wsig') (h5 : bsig = bsig')
    (h6 : Vmu = Vmu') (h7 : cmu = cmu') (h8 : Vsig = Vsig') (h9 : csig = csig') :
    Elbo.rowTerm x e Wmu bmu Wsig bsig Vmu cmu Vsig csig = Elbo.rowTerm x' e' Wmu' bmu' Wsig' bsig' Vmu' cmu' Vsig' csig' := by
  subst h0 h1 h2 h3 h4 h5 h6 h7 h8 h9; rfl

/-- A tile's sum, read off the blocks, is the sum of the terms of the argument arrays' rows `512·t + r`. -/
theorem tileSum_eq (c : Dev nD) (t : Fin cfg0.N) :
    tileSum m c t = ∑ r : Fin 512, Cert.Elbo.rowOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) ⟨512 * t.val + r.val, row_lt t r⟩ := by
  unfold tileSum
  refine Finset.sum_congr rfl fun r _ => ?_
  unfold Cert.Elbo.rowOf
  refine rowTerm_congr ?_ ?_ ?_ ?_ ?_ ?_ ?_ ?_ ?_ ?_
  · -- the data's row
    funext k
    show blk0 m c t (ix2 r k) = _
    rw [blk0_apply, V_main_arg0]
  · -- the noise's row
    funext j
    show blk1 m c t (ix2 r j) = _
    rw [blk1_apply, V_main_arg1]
  · -- the encoder mean's weight: columns 0 … 63 of the packed weight
    funext k j
    exact (blk2_apply m c t k _).trans (V_packedW_mu m c k j)
  · -- the encoder mean's bias: entries 0 … 63 of the packed bias
    funext j
    exact (blk3_apply m c t 0 _).trans (V_packedB_mu m c j)
  · -- the encoder scale's weight: column 64 of the packed weight
    funext k
    exact (blk2_apply m c t k _).trans (V_packedW_sig m c k)
  · -- the encoder scale's bias: entry 64 of the packed bias
    exact (blk3_apply m c t 0 _).trans (V_packedB_sig m c)
  · -- the decoder mean's weight
    funext j q
    show blk4 m c t (ix2 j q) = _
    rw [blk4_apply, V_main_arg6]
  · -- the decoder mean's bias, a row with a unit axis
    funext q
    exact (blk5_apply m c t 0 q).trans (V_decBias m c q)
  · -- the decoder scale's weight
    funext j
    show blk6 m c t (ix2 j 0) = _
    rw [blk6_apply, V_main_arg8]
  · -- the decoder scale's bias, a 1×1 array
    exact (blk7_apply m c t 0 0).trans (V_decScaleBias m c)

/-- The accumulator after the last point is the bound: 32 tiles of 512 rows are the 16384 rows. -/
theorem acc_last_eq_total (c : Dev nD) (h : 31 < cfg0.N) :
    accUpTo m c 31 h = Cert.Elbo.total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [accUpTo_eq_sum]
  unfold Cert.Elbo.total
  rw [Cert.Elbo.sum_rows]
  refine Finset.sum_congr rfl fun s _ => ?_
  exact tileSum_eq m c ⟨s.val, lt_of_lt_of_le s.isLt h⟩

end Cert.KernelIdeal.KValue

end
-- ==== Proof.KernelValue.lean ====
/-
  The idealized kernel's result: the accumulator after the last grid point is the sum of all 16384 per-sample terms.
  The carried scratch after point `n` holds the running sum of the tiles' sums (by induction on the point: the first
  point stores zero and adds its tile's sum, every later point adds its own); the last point copies the scratch into
  the output block, which is the whole 1×1 output array; the one host operation after the region reshapes it.
-/
import proofs.«126403_j42202348650518_1_alg».proof.Proof.TileSum
import proofs.«126403_j42202348650518_1_alg».proof.Proof.BodyValue
import proofs.«126403_j42202348650518_1_alg».proof.Proof.Pieces
import proofs.«126403_j42202348650518_1_alg».proof.Proof.ReadOut
import proofs.«126403_j42202348650518_1_alg».proof.Proof.Bridge
import Idealize.ShloMosaic.Lib.Pipeline.Value
import Idealize.ShloMosaic.PureOps.Ideal.Laws

noncomputable section

namespace Cert.KernelIdeal.KValue

open Cert.KernelIdeal Cert.KernelIdeal.Gen Cert.KernelIdeal.Body Idealize.ShloMosaic Idealize.ShloMosaic.ValueIdx
  Idealize.ShloMosaic.TcCoe Idealize.SL.Sem

variable (m : (ℓ : Loc nD τ sig) → Buf (Elt Ideal) ℓ) (ρ : Dev nD → PrngReg)

/-- The zero block the first point stores is zero at its one index. -/
theorem zero_block : (k0_pay2 (F := Ideal) : S1x1.Idx → EReal) (ix2 0 0) = 0 := by
  unfold k0_pay2
  simp only [shapeCast_self, ValueIdx.broadcast_apply]
  exact Ideal.ofBits_zero_f32

/-- One point's step, whatever the accumulator held: the body adds the tile's sum. -/
theorem step_value (c : Dev nD) (t : Fin cfg0.N) (acc : Vec Ideal S1x1 .f32) :
    (Body.bodyOut (F := Ideal) (iblk m c 0 t) (iblk m c 1 t) (iblk m c 2 t) (iblk m c 3 t) (iblk m c 6 t) (iblk m c 7 t)
        (Body.colSlice (iblk m c 0 t)) (Body.colSlice (iblk m c 4 t)) (Body.colSlice (iblk m c 5 t)) acc : S1x1.Idx → EReal) (ix2 0 0)
      = acc (ix2 0 0) + tileSum m c t :=
  Body.bodyOut_apply (blk0 m c t) (blk1 m c t) (blk2 m c t) (blk3 m c t) (blk4 m c t) (blk5 m c t) (blk6 m c t) (blk7 m c t) acc

/-- The carried scratch after point `n` holds the running sum: by induction on the point. -/
theorem scratch_eq (c : Dev nD) : ∀ (n : ℕ) (h : n < cfg0.N),
    ((outsAt0 m c n h).2 : S1x1.Idx → EReal) (ix2 0 0) = accUpTo m c n h
  | 0, h => by
    rw [outsAt0_A m c ⟨0, h⟩ rfl (show ¬(0 % 32 = 31) by decide)]
    dsimp only
    refine (congrFun (Pieces.sout0_A_0_eq (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) scM0_0 (Memref.isWhole_whole _) ((hcond0_0 ⟨0, h⟩).mpr rfl) (fun hh => (by decide : ¬(0 % 32 = 31)) ((hcond0_1 ⟨0, h⟩).mp hh)) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩)) (ix2 0 0)).trans ?_
    refine (step_value m c ⟨0, h⟩ (k0_pay2 (F := Ideal))).trans ?_
    rw [zero_block]; rfl
  | n + 1, h => by
    have hN : cfg0.N = 32 := N_0
    have h0 : ¬(⟨n + 1, h⟩ : Fin cfg0.N).val % 32 = 0 := by dsimp only; omega
    have ih := scratch_eq c n (Nat.lt_of_succ_lt h)
    by_cases h1 : (⟨n + 1, h⟩ : Fin cfg0.N).val % 32 = 31
    · rw [outsAt0_C m c ⟨n + 1, h⟩ h0 h1]
      dsimp only
      refine (congrFun (Pieces.sout0_C_0_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (outsAt0 m c n (Nat.lt_of_succ_lt h)).2) (ix2 0 0)).trans ?_
      refine (step_value m c ⟨n + 1, h⟩ _).trans ?_
      rw [ih]; rfl
    · rw [outsAt0_B m c ⟨n + 1, h⟩ h0 h1]
      dsimp only
      refine (congrFun (Pieces.sout0_B_0_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (outsAt0 m c n (Nat.lt_of_succ_lt h)).2) (ix2 0 0)).trans ?_
      refine (step_value m c ⟨n + 1, h⟩ _).trans ?_
      rw [ih]; rfl

/-- Every index of a 1×1 array is its one index. -/
theorem idx_one (i : S1x1.Idx) : i = ix2 (0 : Fin 1) (0 : Fin 1) := by
  funext d
  match d with
  | ⟨0, _⟩ => exact Fin.ext (by have := idx2_lt0 i; show (i 0).val = 0; omega)
  | ⟨1, _⟩ => exact Fin.ext (by have := idx2_lt1 i; show (i 1).val = 0; omega)

/-- The output's staging buffer after the last point holds the final running sum, at its one index: the last point
    copies the scratch it has just updated. -/
theorem out_last (c : Dev nD) (h : 31 < cfg0.N) :
    ((outsAt0 m c 31 h).1 : S1x1.Idx → EReal) = fun _ => accUpTo m c 31 h := by
  have h0 : ¬(⟨31, h⟩ : Fin cfg0.N).val % 32 = 0 := (by decide : ¬(31 % 32 = 0))
  have h1 : (⟨31, h⟩ : Fin cfg0.N).val % 32 = 31 := (by decide : 31 % 32 = 31)
  funext i
  rw [idx_one i, outsAt0_C m c ⟨31, h⟩ h0 h1]
  dsimp only
  refine (congrFun (Pieces.out0_C_8_eq (F := Ideal) c (grid0.coords ⟨31, h⟩) (ms0_0 ⟨31, h⟩) (hs0_0 ⟨31, h⟩) (ms0_1 ⟨31, h⟩) (hs0_1 ⟨31, h⟩) (ms0_2 ⟨31, h⟩) (hs0_2 ⟨31, h⟩) (ms0_3 ⟨31, h⟩) (hs0_3 ⟨31, h⟩) (ms0_4 ⟨31, h⟩) (hs0_4 ⟨31, h⟩) (ms0_5 ⟨31, h⟩) (hs0_5 ⟨31, h⟩) (ms0_6 ⟨31, h⟩) (hs0_6 ⟨31, h⟩) (ms0_7 ⟨31, h⟩) (hs0_7 ⟨31, h⟩) (ms0_8 ⟨31, h⟩) (hs0_8 ⟨31, h⟩) scM0_0 (Memref.isWhole_whole _) (fun hh => h0 ((hcond0_0 ⟨31, h⟩).mp hh)) ((hcond0_1 ⟨31, h⟩).mpr h1) (iblk m c 0 ⟨31, h⟩) (iblk m c 1 ⟨31, h⟩) (iblk m c 2 ⟨31, h⟩) (iblk m c 3 ⟨31, h⟩) (iblk m c 4 ⟨31, h⟩) (iblk m c 5 ⟨31, h⟩) (iblk m c 6 ⟨31, h⟩) (iblk m c 7 ⟨31, h⟩) (outsAt0 m c 30 (Nat.lt_of_succ_lt h)).2) (ix2 0 0)).trans ?_
  refine (step_value m c ⟨31, h⟩ _).trans ?_
  rw [scratch_eq m c 30 (Nat.lt_of_succ_lt h)]; rfl

/-- The idealized kernel's run: its result buffer ends at the bound, its arguments unchanged. -/
theorem kernel_run :
    θ_run (defs (F := Ideal)) (onTc (τ := τ) (main (F := Ideal))) ⟨m, fun _ => 0, ρ⟩ (fun r => ∀ c : Dev nD,
      r.2.mem ((c.tc : Thread nD τ).loc main_v19) = (fun _ => Cert.Elbo.total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_of_last m ρ (fun c => Cert.Elbo.total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (fun c t ht => by
    have hN : cfg0.N = 32 := N_0
    have h31 : 31 < cfg0.N := by omega
    obtain rfl : t = ⟨31, h31⟩ := Fin.ext (by have := t.isLt; dsimp only; omega)
    exact (out_last m c h31).trans (by rw [acc_last_eq_total m c h31]))

end Cert.KernelIdeal.KValue

end
-- ==== Proof.RefValue.lean ====
/-
  The reference program's result as one function of its arguments: at the extended reals it is the specification's bound,
  the sum over the 16384 samples of each sample's term.

  The reference computes whole arrays one operation at a time. Read at an index given by its coordinates, each array is one
  of the specification's quantities of a sample `n`: the encoder's mean `μ` and scale `s`, the latent `z = μ + s²·ε`, the
  decoder's mean `x̂` and scale `ŝ`, the fourth powers `s⁴` and `ŝ⁴`, the squared distances `|z − μ|²` and `|x − x̂|²`, the
  squared norm `|z|²` (each of the reference's sums starts from the zero word, `0 + _`), then the three log-densities and
  their difference, the term. The last sum runs over the rank-1 index set of the per-sample array, re-indexed by the
  coordinate to the sum over `Fin 16384`; the final reshape of the scalar to a one-element array keeps the one element.
-/
import proofs.«126403_j42202348650518_1_alg».proof.Proof.Gen.ReferenceIdeal.Run
import proofs.«126403_j42202348650518_1_alg».proof.Proof.Gen.ReferenceIdeal.Read
import proofs.«126403_j42202348650518_1_alg».proof.Proof.Spec
import Idealize.ShloMosaic.Lib.ValueIdxRank1

noncomputable section

namespace Cert.ReferenceIdeal.RefValue

open Cert.ReferenceIdeal Cert.ReferenceIdeal.Gen Cert.ReferenceIdeal.Value Cert.ReferenceIdeal.Read Idealize.ShloMosaic Idealize.ShloMosaic.ValueIdx Idealize.ShloMosaic.TcCoe

variable (a0 : (⟨S16384x4096, .f32⟩ : BufTy).Contents (Elt Ideal)) (a1 : (⟨S16384x64, .f32⟩ : BufTy).Contents (Elt Ideal))
  (a2 : (⟨S4096x64, .f32⟩ : BufTy).Contents (Elt Ideal)) (a3 : (⟨S64, .f32⟩ : BufTy).Contents (Elt Ideal))
  (a4 : (⟨S4096x1, .f32⟩ : BufTy).Contents (Elt Ideal)) (a5 : (⟨S1, .f32⟩ : BufTy).Contents (Elt Ideal))
  (a6 : (⟨S64x4096, .f32⟩ : BufTy).Contents (Elt Ideal)) (a7 : (⟨S4096, .f32⟩ : BufTy).Contents (Elt Ideal))
  (a8 : (⟨S64x1, .f32⟩ : BufTy).Contents (Elt Ideal)) (a9 : (⟨S1, .f32⟩ : BufTy).Contents (Elt Ideal))

/-! ## The reference's composed index maps, at an index given by its coordinates -/

theorem lidx_v0 (n : Fin 16384) (j : Fin 64) (k : Fin 4096) : lidx_main_v0 (ix2 n j) k = ix2 n k :=
  funext fun a => Fin.ext (by match a with | ⟨0, _⟩ => rfl | ⟨1, _⟩ => rfl)
theorem ridx_v0 (n : Fin 16384) (j : Fin 64) (k : Fin 4096) : ridx_main_v0 (ix2 n j) k = ix2 k j :=
  funext fun a => Fin.ext (by match a with | ⟨0, _⟩ => rfl | ⟨1, _⟩ => rfl)
theorem idx_v2v1 (n : Fin 16384) (j : Fin 64) : idx_main_v1 (idx_main_v2 (ix2 n j)) = ix1 j :=
  funext fun a => Fin.ext (by match a with | ⟨0, _⟩ => rfl)
theorem lidx_v4 (n : Fin 16384) (k : Fin 4096) : lidx_main_v4 (ix2 n 0) k = ix2 n k :=
  funext fun a => Fin.ext (by match a with | ⟨0, _⟩ => rfl | ⟨1, _⟩ => rfl)
theorem ridx_v4 (n : Fin 16384) (k : Fin 4096) : ridx_main_v4 (ix2 n 0) k = ix2 k 0 :=
  funext fun a => Fin.ext (by match a with | ⟨0, _⟩ => rfl | ⟨1, _⟩ => rfl)
theorem idx_v6v5 (i : S16384x1.Idx) : idx_main_v5 (idx_main_v6 i) = ix1 0 :=
  funext fun a => Fin.ext (by match a with | ⟨0, _⟩ => rfl)
theorem idx_v9 (n : Fin 16384) (j : Fin 64) : idx_main_v9 (ix2 n j) = ix2 n 0 :=
  funext fun a => Fin.ext (by match a with | ⟨0, _⟩ => rfl | ⟨1, _⟩ => rfl)
theorem lidx_v12 (n : Fin 16384) (q : Fin 4096) (k : Fin 64) : lidx_main_v12 (ix2 n q) k = ix2 n k :=
  funext fun a => Fin.ext (by match a with | ⟨0, _⟩ => rfl | ⟨1, _⟩ => rfl)
theorem ridx_v12 (n : Fin 16384) (q : Fin 4096) (k : Fin 64) : ridx_main_v12 (ix2 n q) k = ix2 k q :=
  funext fun a => Fin.ext (by match a with | ⟨0, _⟩ => rfl | ⟨1, _⟩ => rfl)
theorem idx_v14v13 (n : Fin 16384) (q : Fin 4096) : idx_main_v13 (idx_main_v14 (ix2 n q)) = ix1 q :=
  funext fun a => Fin.ext (by match a with | ⟨0, _⟩ => rfl)
theorem lidx_v16 (n : Fin 16384) (k : Fin 64) : lidx_main_v16 (ix2 n 0) k = ix2 n k :=
  funext fun a => Fin.ext (by match a with | ⟨0, _⟩ => rfl | ⟨1, _⟩ => rfl)
theorem ridx_v16 (n : Fin 16384) (k : Fin 64) : ridx_main_v16 (ix2 n 0) k = ix2 k 0 :=
  funext fun a => Fin.ext (by match a with | ⟨0, _⟩ => rfl | ⟨1, _⟩ => rfl)
theorem idx_v18v17 (i : S16384x1.Idx) : idx_main_v17 (idx_main_v18 i) = ix1 0 :=
  funext fun a => Fin.ext (by match a with | ⟨0, _⟩ => rfl)
theorem idx_v20 (n : Fin 16384) : idx_main_v20 (ix1 n) = ix2 n 0 :=
  funext fun a => Fin.ext (by match a with | ⟨0, _⟩ => exact Nat.div_one _ | ⟨1, _⟩ => rfl)
theorem idx_v23 (n : Fin 16384) : idx_main_v23 (ix1 n) = ix2 n 0 :=
  funext fun a => Fin.ext (by match a with | ⟨0, _⟩ => exact Nat.div_one _ | ⟨1, _⟩ => rfl)
theorem idx_v28 (n : Fin 16384) (k : Fin 64) : idx_main_v28 (ix1 n) k = ix2 n k :=
  funext fun a => Fin.ext (by match a with | ⟨0, _⟩ => rfl | ⟨1, _⟩ => rfl)
theorem idx_v40 (n : Fin 16384) (k : Fin 4096) : idx_main_v40 (ix1 n) k = ix2 n k :=
  funext fun a => Fin.ext (by match a with | ⟨0, _⟩ => rfl | ⟨1, _⟩ => rfl)
theorem idx_v51 (n : Fin 16384) (k : Fin 64) : idx_main_v51 (ix1 n) k = ix2 n k :=
  funext fun a => Fin.ext (by match a with | ⟨0, _⟩ => rfl | ⟨1, _⟩ => rfl)

/-! ## The quantities of sample `n`, read off the argument arrays -/

/-- Row `n` of the data. -/
def xrow (n : Fin 16384) : Fin 4096 → EReal := fun k => a0 (ix2 n k)
/-- The encoder's mean of sample `n`. -/
def mu (n : Fin 16384) : Fin 64 → EReal :=
  Cert.Elbo.encMean (xrow a0 n) (fun k j => a2 (ix2 k j)) (fun j => a3 (ix1 j))
/-- The encoder's scale of sample `n`. -/
def sc (n : Fin 16384) : EReal := Cert.Elbo.affine (xrow a0 n) (fun k => a4 (ix2 k 0)) (a5 (ix1 0))
/-- The latent of sample `n`. -/
def lat (n : Fin 16384) : Fin 64 → EReal :=
  Cert.Elbo.latent (mu a0 a2 a3 n) (sc a0 a4 a5 n) (fun j => a1 (ix2 n j))
/-- The decoder's mean of sample `n`. -/
def xhat (n : Fin 16384) : Fin 4096 → EReal :=
  Cert.Elbo.decMean (lat a0 a1 a2 a3 a4 a5 n) (fun j q => a6 (ix2 j q)) (fun q => a7 (ix1 q))
/-- The decoder's scale of sample `n`. -/
def shat (n : Fin 16384) : EReal := Cert.Elbo.affine (lat a0 a1 a2 a3 a4 a5 n) (fun j => a8 (ix2 j 0)) (a9 (ix1 0))

/-- The specification's term of sample `n` from these quantities. -/
theorem rowOf_eq (n : Fin 16384) :
    Cert.Elbo.rowOf a0 a1 a2 a3 a4 a5 a6 a7 a8 a9 n
      = Cert.Elbo.termOf (xrow a0 n) (mu a0 a2 a3 n) (lat a0 a1 a2 a3 a4 a5 n) (xhat a0 a1 a2 a3 a4 a5 a6 a7 n)
          (sc a0 a4 a5 n) (shat a0 a1 a2 a3 a4 a5 a8 a9 n) := rfl

/-! ## The reference's intermediate arrays at an index -/

theorem v3_at (n : Fin 16384) (j : Fin 64) : val_main_v3 (F := Ideal) a0 a2 a3 (ix2 n j) = mu a0 a2 a3 n j := by
  rw [val_main_v3_apply, val_main_v0_apply, val_main_v2_apply, val_main_v1_apply]
  simp only [lidx_v0, ridx_v0, idx_v2v1, Ideal.addf_def]
  rfl

theorem v7_at (n : Fin 16384) : val_main_v7 (F := Ideal) a0 a4 a5 (ix2 n 0) = sc a0 a4 a5 n := by
  rw [val_main_v7_apply, val_main_v4_apply, val_main_v6_apply, val_main_v5_apply]
  simp only [lidx_v4, ridx_v4, idx_v6v5, Ideal.addf_def]
  rfl

theorem v11_at (n : Fin 16384) (j : Fin 64) :
    val_main_v11 (F := Ideal) a0 a1 a2 a3 a4 a5 (ix2 n j) = lat a0 a1 a2 a3 a4 a5 n j := by
  rw [val_main_v11_apply, val_main_v10_apply, val_main_v9_apply, val_main_v8_apply, idx_v9, v3_at, v7_at]
  rfl

theorem v15_at (n : Fin 16384) (q : Fin 4096) :
    val_main_v15 (F := Ideal) a0 a1 a2 a3 a4 a5 a6 a7 (ix2 n q) = xhat a0 a1 a2 a3 a4 a5 a6 a7 n q := by
  rw [val_main_v15_apply, val_main_v12_apply, val_main_v14_apply, val_main_v13_apply]
  simp only [lidx_v12, ridx_v12, idx_v14v13, v11_at, Ideal.addf_def]
  rfl

theorem v19_at (n : Fin 16384) :
    val_main_v19 (F := Ideal) a0 a1 a2 a3 a4 a5 a8 a9 (ix2 n 0) = shat a0 a1 a2 a3 a4 a5 a8 a9 n := by
  rw [val_main_v19_apply, val_main_v16_apply, val_main_v18_apply, val_main_v17_apply]
  simp only [lidx_v16, ridx_v16, idx_v18v17, v11_at, Ideal.addf_def]
  rfl

theorem v22_at (n : Fin 16384) : val_main_v22 (F := Ideal) a0 a4 a5 (ix1 n) = Cert.Elbo.fourth (sc a0 a4 a5 n) := by
  rw [val_main_v22_apply, val_main_v21_apply, val_main_v20_apply, idx_v20, v7_at]
  rfl

theorem v25_at (n : Fin 16384) :
    val_main_v25 (F := Ideal) a0 a1 a2 a3 a4 a5 a8 a9 (ix1 n) = Cert.Elbo.fourth (shat a0 a1 a2 a3 a4 a5 a8 a9 n) := by
  rw [val_main_v25_apply, val_main_v24_apply, val_main_v23_apply, idx_v23, v19_at]
  rfl

theorem v28_at (n : Fin 16384) :
    val_main_v28 (F := Ideal) a0 a1 a2 a3 a4 a5 (ix1 n)
      = Cert.Elbo.sqDist (lat a0 a1 a2 a3 a4 a5 n) (mu a0 a2 a3 n) := by
  rw [val_main_v28_apply, val_main_cst_apply]
  simp only [idx_v28, val_main_v27_apply, val_main_v26_apply, v11_at, v3_at, Ideal.ofBits_def, Ideal.ofBits_zero_f32,
    zero_add, Ideal.mulf_def, Ideal.subf_def]
  rfl

theorem v40_at (n : Fin 16384) :
    val_main_v40 (F := Ideal) a0 a1 a2 a3 a4 a5 a6 a7 (ix1 n)
      = Cert.Elbo.sqDist (xrow a0 n) (xhat a0 a1 a2 a3 a4 a5 a6 a7 n) := by
  rw [val_main_v40_apply, val_main_cst_3_apply]
  simp only [idx_v40, val_main_v39_apply, val_main_v38_apply, v15_at, Ideal.ofBits_def, Ideal.ofBits_zero_f32,
    zero_add, Ideal.mulf_def, Ideal.subf_def]
  rfl

theorem v51_at (n : Fin 16384) :
    val_main_v51 (F := Ideal) a0 a1 a2 a3 a4 a5 (ix1 n) = Cert.Elbo.sqNorm (lat a0 a1 a2 a3 a4 a5 n) := by
  rw [val_main_v51_apply, val_main_cst_7_apply]
  simp only [idx_v51, val_main_v50_apply, v11_at, Ideal.ofBits_def, Ideal.ofBits_zero_f32, zero_add, Ideal.mulf_def]
  rfl

/-! ## The three log-densities and the term -/

theorem v37_at (n : Fin 16384) :
    val_main_v37 (F := Ideal) a0 a1 a2 a3 a4 a5 (ix1 n)
      = Cert.Elbo.logGauss Cert.Elbo.c64 Cert.Elbo.c64log2pi
          (Cert.Elbo.sqDist (lat a0 a1 a2 a3 a4 a5 n) (mu a0 a2 a3 n)) (Cert.Elbo.fourth (sc a0 a4 a5 n)) := by
  rw [val_main_v37_apply, val_main_v36_apply, val_main_cst_2_apply, val_main_v35_apply, val_main_v33_apply,
    val_main_v32_apply, val_main_cst_1_apply, val_main_v31_apply, val_main_v30_apply, val_main_cst_0_apply,
    val_main_v29_apply, val_main_v34_apply, v28_at, v22_at]
  rfl

theorem v49_at (n : Fin 16384) :
    val_main_v49 (F := Ideal) a0 a1 a2 a3 a4 a5 a6 a7 a8 a9 (ix1 n)
      = Cert.Elbo.logGauss Cert.Elbo.c4096 Cert.Elbo.c4096log2pi
          (Cert.Elbo.sqDist (xrow a0 n) (xhat a0 a1 a2 a3 a4 a5 a6 a7 n))
          (Cert.Elbo.fourth (shat a0 a1 a2 a3 a4 a5 a8 a9 n)) := by
  rw [val_main_v49_apply, val_main_v48_apply, val_main_cst_6_apply, val_main_v47_apply, val_main_v45_apply,
    val_main_v44_apply, val_main_cst_5_apply, val_main_v43_apply, val_main_v42_apply, val_main_cst_4_apply,
    val_main_v41_apply, val_main_v46_apply, v40_at, v25_at]
  rfl

theorem v55_at (n : Fin 16384) :
    val_main_v55 (F := Ideal) a0 a1 a2 a3 a4 a5 (ix1 n)
      = Cert.Elbo.cNegHalf * (Cert.Elbo.c64log2pi + Cert.Elbo.sqNorm (lat a0 a1 a2 a3 a4 a5 n)) := by
  rw [val_main_v55_apply, val_main_v54_apply, val_main_cst_9_apply, val_main_v53_apply, val_main_v52_apply,
    val_main_cst_8_apply, v51_at]
  rfl

/-- The reference's per-sample array is the specification's term of each sample. -/
theorem v57_at (n : Fin 16384) :
    val_main_v57 (F := Ideal) a0 a1 a2 a3 a4 a5 a6 a7 a8 a9 (ix1 n) = Cert.Elbo.rowOf a0 a1 a2 a3 a4 a5 a6 a7 a8 a9 n := by
  rw [val_main_v57_apply, val_main_v56_apply, v37_at, v49_at, v55_at, rowOf_eq]
  rfl

/-! ## The sum over the samples, and the result's one element -/

theorem v58_at (i : S_.Idx) :
    val_main_v58 (F := Ideal) a0 a1 a2 a3 a4 a5 a6 a7 a8 a9 i = Cert.Elbo.total a0 a1 a2 a3 a4 a5 a6 a7 a8 a9 := by
  rw [val_main_v58_apply, val_main_cst_10_apply, Ideal.ofBits_def, Ideal.ofBits_zero_f32, zero_add]
  unfold Cert.Elbo.total
  rw [← Equiv.sum_comp (idxEquiv1 (n := 16384)).symm]
  exact Finset.sum_congr rfl fun n _ => v57_at a0 a1 a2 a3 a4 a5 a6 a7 a8 a9 n

theorem v59_at (i : S1.Idx) :
    val_main_v59 (F := Ideal) a0 a1 a2 a3 a4 a5 a6 a7 a8 a9 i = Cert.Elbo.total a0 a1 a2 a3 a4 a5 a6 a7 a8 a9 := by
  unfold val_main_v59
  rw [shapeCast_apply _ shapeCasts_S_S1 i ix0 (by
    have h1 := (S_.rowMajor ix0).isLt
    have h2 := (S1.rowMajor i).isLt
    have e1 : S_.numel = 1 := rfl
    have e2 : S1.numel = 1 := rfl
    omega)]
  exact v58_at a0 a1 a2 a3 a4 a5 a6 a7 a8 a9 ix0

/-- The reference's result is the specification's bound. -/
theorem ref_total (m : (ℓ : Loc nD τ sig) → Buf (Elt Ideal) ℓ) (c : Dev nD) :
    Cert.ReferenceIdeal.Value.res_main_v59 (F := Ideal) m c
      = fun _ => Cert.Elbo.total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [val_main_v59_eq]
  funext i
  exact v59_at _ _ _ _ _ _ _ _ _ _ i

end Cert.ReferenceIdeal.RefValue
end
-- ==== Proof.lean ====
/-
  The certificate of a variational autoencoder's evidence-lower-bound kernel against its jnp reference.

  Both programs compute, from 16384 data rows `x`, noise rows `ε` and the weights of four affine maps, the sum over the
  samples of log q(z|x) − log p(x|z) − log p(z) with z = μ(x) + s(x)²·ε, the two Gaussians isotropic with variances
  s(x)⁴ and ŝ(z)⁴ (Proof/Spec.lean states the per-sample term and the total). The kernel walks the samples in 32 tiles of
  512 rows, packs the encoder's mean and scale weights into one 4096×128 matrix so that one product gives both, takes the
  decoder's squared error in eight 512-column chunks, and accumulates one number across the grid; the reference computes
  every intermediate array whole and sums once. On the extended reals addition is commutative and associative, a change of
  float format is the identity, and both programs apply the same operations to the same float words in the same order
  inside each sample's term: so the two results are the same sum, regrouped. No finiteness of the inputs is used.

  The frames of the two kernel programs are the generated ones; the reference's frame is its generated run with the
  result dropped. The ideal pass rewrote nothing, so the idealization conjunct is trivial.
-/
import proofs.«126403_j42202348650518_1_alg».proof.Proof.KernelValue
import proofs.«126403_j42202348650518_1_alg».proof.Proof.RefValue
import proofs.«126403_j42202348650518_1_alg».proof.Proof.Gen.Kernel.Frame
import proofs.«126403_j42202348650518_1_alg».proof.Proof.Gen.Pre_finite_inputs
import proofs.«126403_j42202348650518_1_alg».proof.Defs
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the bound of those arguments in their result. -/
theorem algebraic : Cert.algebraic_KernelIdeal_ReferenceIdeal := by
  intro m ρ m' ρ' _ hagree
  refine ⟨_, Cert.KernelIdeal.KValue.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.RefValue.ref_total m' c, h0, h1, h2, h3, h4, h5, h6, h7, h8, h9]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
